-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x256 : Shape := ⟨3, ![32, 512, 256]⟩
abbrev S1024x1280 : Shape := ⟨2, ![1024, 1280]⟩
abbrev S1024 : Shape := ⟨1, ![1024]⟩
abbrev S_ : Shape := ⟨0, ![]⟩

class Facts : Prop where
  bcast_S_S32x512x256 : S_.BroadcastsInDim S32x512x256 (![] : Fin 0 → Fin S32x512x256.rank)
  reducesTo_S32x512x256_S_d0_1_2 : S32x512x256.ReducesTo [0, 1, 2] S_
  h_S_ : 0 < S_.numel
  bcast_S_S1024x1280 : S_.BroadcastsInDim S1024x1280 (![] : Fin 0 → Fin S1024x1280.rank)
  reducesTo_S1024x1280_S_d0_1 : S1024x1280.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32x512x256 .f32) (main_arg1 : FVec F S1024x1280 .f32) (main_arg2 : FVec F S1024 .f32) : IVec S_ 1 :=
  let main_v0 : FVec F S32x512x256 .f32 := Host.absf main_arg0
  let main_cst : FVec F S_ .f32 := constant S_ .f32 0x7F800000#32
  let main_v1 : FVec F S32x512x256 .f32 := broadcastInDim S32x512x256 ![] bcast_S_S32x512x256 main_cst
  let main_v2 : IVec S32x512x256 1 := cmpf .olt main_v0 main_v1
  let main_c : IVec S_ 1 := constantI S_ 1 1#1
  let main_v3 : IVec S_ 1 := (fun x v => Host.reduce IntOp.andi x v reducesTo_S32x512x256_S_d0_1_2 h_S_) main_v2 main_c
  let main_v4 : FVec F S1024x1280 .f32 := Host.absf main_arg1
  let main_cst_0 : FVec F S_ .f32 := constant S_ .f32 0x7F800000#32
  let main_v5 : FVec F S1024x1280 .f32 := broadcastInDim S1024x1280 ![] bcast_S_S1024x1280 main_cst_0
  let main_v6 : IVec S1024x1280 1 := cmpf .olt main_v4 main_v5
  let main_c_1 : IVec S_ 1 := constantI S_ 1 1#1
  let main_v7 : IVec S_ 1 := (fun x v => Host.reduce IntOp.andi x v reducesTo_S1024x1280_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32x512x256 : Shape := ⟨3, ![32, 512, 256]⟩
abbrev S1024x1280 : Shape := ⟨2, ![1024, 1280]⟩
abbrev S1024 : Shape := ⟨1, ![1024]⟩
abbrev S1280x1024 : Shape := ⟨2, ![1280, 1024]⟩
abbrev S1x1024 : Shape := ⟨2, ![1, 1024]⟩
abbrev S32x1024 : Shape := ⟨2, ![32, 1024]⟩
abbrev S8x512x256 : Shape := ⟨3, ![8, 512, 256]⟩
abbrev S8x1024 : Shape := ⟨2, ![8, 1024]⟩
abbrev S8x128x256 : Shape := ⟨3, ![8, 128, 256]⟩
abbrev S8x128x1280 : Shape := ⟨3, ![8, 128, 1280]⟩
abbrev S1024x1024 : Shape := ⟨2, ![1024, 1024]⟩
abbrev S8x128x1024 : Shape := ⟨3, ![8, 128, 1024]⟩
abbrev S8x124x256 : Shape := ⟨3, ![8, 124, 256]⟩
abbrev S8x124x1280 : Shape := ⟨3, ![8, 124, 1280]⟩
abbrev S992x1280 : Shape := ⟨2, ![992, 1280]⟩
abbrev S992x1024 : Shape := ⟨2, ![992, 1024]⟩
abbrev S8x124x1024 : Shape := ⟨3, ![8, 124, 1024]⟩

abbrev nBuf : Space → Nat
  | .hbm => 7
  | .vmem => 6
  | .smem => 0
  | _ => 0

abbrev bufTy : (tb : Table) → Fin (tcTables nBuf tb) → BufTy
  | .hbm, ⟨0, _⟩ => ⟨S32x512x256, .f32⟩
  | .hbm, ⟨1, _⟩ => ⟨S1024x1280, .f32⟩
  | .hbm, ⟨2, _⟩ => ⟨S1024, .f32⟩
  | .hbm, ⟨3, _⟩ => ⟨S1280x1024, .f32⟩
  | .hbm, ⟨4, _⟩ => ⟨S1280x1024, .bf16⟩
  | .hbm, ⟨5, _⟩ => ⟨S1x1024, .f32⟩
  | .hbm, ⟨6, _⟩ => ⟨S32x1024, .f32⟩
  | .local _ .vmem, ⟨0, _⟩ => ⟨S8x512x256, .f32⟩
  | .local _ .vmem, ⟨1, _⟩ => ⟨S8x512x256, .f32⟩
  | .local _ .vmem, ⟨2, _⟩ => ⟨S1280x1024, .bf16⟩
  | .local _ .vmem, ⟨3, _⟩ => ⟨S1x1024, .f32⟩
  | .local _ .vmem, ⟨4, _⟩ => ⟨S8x1024, .f32⟩
  | .local _ .vmem, ⟨5, _⟩ => ⟨S8x1024, .f32⟩
  | _, _ => ⟨S32x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x1280_S1280x1024_1_0 : S1024x1280.Transposes [1, 0] S1280x1024
  bitsLt_bf16_f32 : FTy.bits .bf16 < FTy.bits .f32
  shapeCasts_S1024_S1x1024 : S1024.ShapeCasts S1x1024
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S8x512x256_S8x512x256_0_0_0 : ∀ a, (![0, 0, 0] : Fin 3 → Nat) a + S8x512x256.size a ≤ S8x512x256.size a
  h_S8x512x256 : 0 < S8x512x256.numel
  slices_S8x512x256_o0_0_0_S8x128x256 : S8x512x256.Slices ![0, 0, 0] S8x128x256
  slices_S8x512x256_o0_1_0_S8x128x256 : S8x512x256.Slices ![0, 1, 0] S8x128x256
  slices_S8x512x256_o0_2_0_S8x128x256 : S8x512x256.Slices ![0, 2, 0] S8x128x256
  slices_S8x512x256_o0_3_0_S8x128x256 : S8x512x256.Slices ![0, 3, 0] S8x128x256
  slices_S8x512x256_o0_4_0_S8x128x256 : S8x512x256.Slices ![0, 4, 0] S8x128x256
  concatenates_S8x128x256_S8x128x256_S8x128x256_S8x128x256_S8x128x256_S8x128x1280_d2 : Shape.Concatenates [S8x128x256, S8x128x256, S8x128x256, S8x128x256, S8x128x256] S8x128x1280 2
  shapeCasts_S8x128x1280_S1024x1280 : S8x128x1280.ShapeCasts S1024x1280
  shapeCasts_S1024x1024_S8x128x1024 : S1024x1024.ShapeCasts S8x128x1024
  reduces_S8x128x1024_S8x1024 : S8x128x1024.Reduces [1] S8x1024
  slices_S8x512x256_o0_128_0_S8x128x256 : S8x512x256.Slices ![0, 128, 0] S8x128x256
  slices_S8x512x256_o0_129_0_S8x128x256 : S8x512x256.Slices ![0, 129, 0] S8x128x256
  slices_S8x512x256_o0_130_0_S8x128x256 : S8x512x256.Slices ![0, 130, 0] S8x128x256
  slices_S8x512x256_o0_131_0_S8x128x256 : S8x512x256.Slices ![0, 131, 0] S8x128x256
  slices_S8x512x256_o0_132_0_S8x128x256 : S8x512x256.Slices ![0, 132, 0] S8x128x256
  slices_S8x512x256_o0_256_0_S8x128x256 : S8x512x256.Slices ![0, 256, 0] S8x128x256
  slices_S8x512x256_o0_257_0_S8x128x256 : S8x512x256.Slices ![0, 257, 0] S8x128x256
  slices_S8x512x256_o0_258_0_S8x128x256 : S8x512x256.Slices ![0, 258, 0] S8x128x256
  slices_S8x512x256_o0_259_0_S8x128x256 : S8x512x256.Slices ![0, 259, 0] S8x128x256
  slices_S8x512x256_o0_260_0_S8x128x256 : S8x512x256.Slices ![0, 260, 0] S8x128x256
  slices_S8x512x256_o0_384_0_S8x124x256 : S8x512x256.Slices ![0, 384, 0] S8x124x256
  slices_S8x512x256_o0_385_0_S8x124x256 : S8x512x256.Slices ![0, 385, 0] S8x124x256
  slices_S8x512x256_o0_386_0_S8x124x256 : S8x512x256.Slices ![0, 386, 0] S8x124x256
  slices_S8x512x256_o0_387_0_S8x124x256 : S8x512x256.Slices ![0, 387, 0] S8x124x256
  slices_S8x512x256_o0_388_0_S8x124x256 : S8x512x256.Slices ![0, 388, 0] S8x124x256
  concatenates_S8x124x256_S8x124x256_S8x124x256_S8x124x256_S8x124x256_S8x124x1280_d2 : Shape.Concatenates [S8x124x256, S8x124x256, S8x124x256, S8x124x256, S8x124x256] S8x124x1280 2
  shapeCasts_S8x124x1280_S992x1280 : S8x124x1280.ShapeCasts S992x1280
  shapeCasts_S992x1024_S8x124x1024 : S992x1024.ShapeCasts S8x124x1024
  reduces_S8x124x1024_S8x1024 : S8x124x1024.Reduces [1] S8x1024
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  dot_S1024x1280_S1280x1024_S1024x1024_1_0_0_1_n_n_wf : DotDims.WF S1024x1280 S1280x1024 S1024x1024 [1] [0] [0] [1] [] []
  dot_S992x1280_S1280x1024_S992x1024_1_0_0_1_n_n_wf : DotDims.WF S992x1280 S1280x1024 S992x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S32x512x256.size a
  hwx0_0 : ∀ i : grid0.Coords, EltTy.bits .f32 = 32 ∨ (Rect.block (s := S32x512x256) S8x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S1280x1024.size a
  hwx0_1 : ∀ i : grid0.Coords, EltTy.bits .bf16 = 32 ∨ (Rect.block (s := S1280x1024) S1280x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x1024.size a
  hwx0_3 : ∀ i : grid0.Coords, EltTy.bits .f32 = 32 ∨ (Rect.block (s := S32x1024) S8x1024.size (cc0_transform_3 i) (hinb0_3 i)).WholeWords (EltTy.packing .f32)

variable [Facts₀]

def dot_S1024x1280_S1280x1024_S1024x1024_1_0_0_1_n_n : DotDims S1024x1280 S1280x1024 S1024x1024 where
  lhsContracting := [1]
  rhsContracting := [0]
  lhsNonContracting := [0]
  rhsNonContracting := [1]
  lhsBatch := []
  rhsBatch := []
  wf := dot_S1024x1280_S1280x1024_S1024x1024_1_0_0_1_n_n_wf
def dot_S992x1280_S1280x1024_S992x1024_1_0_0_1_n_n : DotDims S992x1280 S1280x1024 S992x1024 where
  lhsContracting := [1]
  rhsContracting := [0]
  lhsNonContracting := [0]
  rhsNonContracting := [1]
  lhsBatch := []
  rhsBatch := []
  wf := dot_S992x1280_S1280x1024_S992x1024_1_0_0_1_n_n_wf

abbrev win0_0 : Pipeline.Window sig grid0 :=
  Pipeline.Window.ofSpec (Memref.whole main_arg0) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1280x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x256 : Shape := ⟨3, ![32, 512, 256]⟩
abbrev S1024x1280 : Shape := ⟨2, ![1024, 1280]⟩
abbrev S1024 : Shape := ⟨1, ![1024]⟩
abbrev S508 : Shape := ⟨1, ![508]⟩
abbrev S508x1 : Shape := ⟨2, ![508, 1]⟩
abbrev S5 : Shape := ⟨1, ![5]⟩
abbrev S1x5 : Shape := ⟨2, ![1, 5]⟩
abbrev S508x5 : Shape := ⟨2, ![508, 5]⟩
abbrev S_ : Shape := ⟨0, ![]⟩
abbrev S508x5x1 : Shape := ⟨3, ![508, 5, 1]⟩
abbrev S32x508x5x256 : Shape := ⟨4, ![32, 508, 5, 256]⟩
abbrev S32x508x1280 : Shape := ⟨3, ![32, 508, 1280]⟩
abbrev S32x508x1024 : Shape := ⟨3, ![32, 508, 1024]⟩
abbrev S1x1x1024 : Shape := ⟨3, ![1, 1, 1024]⟩
abbrev S32x1024 : Shape := ⟨2, ![32, 1024]⟩

abbrev nBuf : Space → Nat
  | .hbm => 29
  | .vmem => 0
  | .smem => 0
  | _ => 0

abbrev bufTy : (tb : Table) → Fin (tcTables nBuf tb) → BufTy
  | .hbm, ⟨0, _⟩ => ⟨S32x512x256, .f32⟩
  | .hbm, ⟨1, _⟩ => ⟨S1024x1280, .f32⟩
  | .hbm, ⟨2, _⟩ => ⟨S1024, .f32⟩
  | .hbm, ⟨3, _⟩ => ⟨S508, .i32⟩
  | .hbm, ⟨4, _⟩ => ⟨S508x1, .i32⟩
  | .hbm, ⟨5, _⟩ => ⟨S5, .i32⟩
  | .hbm, ⟨6, _⟩ => ⟨S1x5, .i32⟩
  | .hbm, ⟨7, _⟩ => ⟨S508x5, .i32⟩
  | .hbm, ⟨8, _⟩ => ⟨S508x5, .i32⟩
  | .hbm, ⟨9, _⟩ => ⟨S508x5, .i32⟩
  | .hbm, ⟨10, _⟩ => ⟨S_, .i32⟩
  | .hbm, ⟨11, _⟩ => ⟨S508x5, .i32⟩
  | .hbm, ⟨12, _⟩ => ⟨S508x5, .i1⟩
  | .hbm, ⟨13, _⟩ => ⟨S_, .i32⟩
  | .hbm, ⟨14, _⟩ => ⟨S508x5, .i32⟩
  | .hbm, ⟨15, _⟩ => ⟨S508x5, .i32⟩
  | .hbm, ⟨16, _⟩ => ⟨S508x5, .i32⟩
  | .hbm, ⟨17, _⟩ => ⟨S508x5x1, .i32⟩
  | .hbm, ⟨18, _⟩ => ⟨S32x508x5x256, .f32⟩
  | .hbm, ⟨19, _⟩ => ⟨S32x508x1280, .f32⟩
  | .hbm, ⟨20, _⟩ => ⟨S32x508x1024, .f32⟩
  | .hbm, ⟨21, _⟩ => ⟨S1x1x1024, .f32⟩
  | .hbm, ⟨22, _⟩ => ⟨S32x508x1024, .f32⟩
  | .hbm, ⟨23, _⟩ => ⟨S32x508x1024, .f32⟩
  | .hbm, ⟨24, _⟩ => ⟨S_, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | _, _ => ⟨S32x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_call0_cst : Ref sig .tc := ⟨.hbm, 26, rfl⟩
abbrev main_call0_v0 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S508_S508x1_0 : S508.BroadcastsInDim S508x1 (![0] : Fin 1 → Fin S508x1.rank)
  bcast_S5_S1x5_1 : S5.BroadcastsInDim S1x5 (![1] : Fin 1 → Fin S1x5.rank)
  bcast_S508x1_S508x5_0_1 : S508x1.BroadcastsInDim S508x5 (![0, 1] : Fin 2 → Fin S508x5.rank)
  bcast_S1x5_S508x5_0_1 : S1x5.BroadcastsInDim S508x5 (![0, 1] : Fin 2 → Fin S508x5.rank)
  bcast_S_S508x5 : S_.BroadcastsInDim S508x5 (![] : Fin 0 → Fin S508x5.rank)
  bcast_S508x5_S508x5x1_0_1 : S508x5.BroadcastsInDim S508x5x1 (![0, 1] : Fin 2 → Fin S508x5x1.rank)
  shapeCasts_S32x508x5x256_S32x508x1280 : S32x508x5x256.ShapeCasts S32x508x1280
  bcast_S1024_S1x1x1024_2 : S1024.BroadcastsInDim S1x1x1024 (![2] : Fin 1 → Fin S1x1x1024.rank)
  bcast_S1x1x1024_S32x508x1024_0_1_2 : S1x1x1024.BroadcastsInDim S32x508x1024 (![0, 1, 2] : Fin 3 → Fin S32x508x1024.rank)
  reducesTo_S32x508x1024_S32x1024_d1 : S32x508x1024.ReducesTo [1] S32x1024
  h_S_ : 0 < S_.numel
  bcast_S_S32x1024 : S_.BroadcastsInDim S32x1024 (![] : Fin 0 → Fin S32x1024.rank)
  gather_S32x512x256_S508x5x1_S32x508x5x256_03_1_n_n_1_2_321256_wf : GatherDims.WF S32x512x256 S508x5x1 S32x508x5x256 [0, 3] [1] [] [1] [] 2 ![32, 1, 256]
  dot_S32x508x1280_S1024x1280_S32x508x1024_2_1_01_0_n_n_wf : DotDims.WF S32x508x1280 S1024x1280 S32x508x1024 [2] [1] [0, 1] [0] [] []

variable [Facts₀]

def gather_S32x512x256_S508x5x1_S32x508x5x256_03_1_n_n_1_2_321256 : GatherDims S32x512x256 S508x5x1 S32x508x5x256 where
  offsetDims := [0, 3]
  collapsedSliceDims := [1]
  operandBatchingDims := []
  startIndicesBatchingDims := []
  startIndexMap := [1]
  indexVectorDim := 2
  sliceSizes := ![32, 1, 256]
  wf := gather_S32x512x256_S508x5x1_S32x508x5x256_03_1_n_n_1_2_321256_wf
def dot_S32x508x1280_S1024x1280_S32x508x1024_2_1_01_0_n_n : DotDims S32x508x1280 S1024x1280 S32x508x1024 where
  lhsContracting := [2]
  rhsContracting := [1]
  lhsNonContracting := [0, 1]
  rhsNonContracting := [0]
  lhsBatch := []
  rhsBatch := []
  wf := dot_S32x508x1280_S1024x1280_S32x508x1024_2_1_01_0_n_n_wf

class Facts : Prop extends Facts₀ where

variable [Facts]
-- ==== Proof.WindowPool.lean ====
/-
  Sliding windows of five words, projected and pooled over time.

  A sentence is 512 words of 256 numbers.  Window `t` (of 508) is words `t .. t+4` laid side by side as one
  vector of 1280 features, window position major: feature `k` is column `k % 256` of word `t + k / 256`.
  Each window is projected onto 1024 hidden units by a weight matrix; the result for a sentence and a
  hidden unit is the maximum over the 508 windows of the projections, plus that unit's bias, clipped
  below at zero.

  Two facts about maxima over the extended reals are proved here.  Adding a constant commutes with a
  maximum taken from `⊥` (addition is monotone and `⊥ + c = ⊥`), so it does not matter whether the bias
  is added before or after pooling.  And the maximum over 508 windows is the maximum of the maxima over
  the four stretches 0..127, 128..255, 256..383, 384..507.
-/
import Idealize.ShloMosaic.PureOps.Ideal
import Idealize.ShloMosaic.PureOps.Ideal.Laws
import Idealize.ShloMosaic.Lib.ValueIdx

noncomputable section

namespace Cert.WindowPool

open Idealize.ShloMosaic Idealize.ShloMosaic.ValueIdx

/-- The word that feature `k` of window `t` comes from. -/
def wordOf (t : Fin 508) (k : Fin 1280) : Fin 512 :=
  ⟨t.val + k.val / 256, by have := t.isLt; have := k.isLt; omega⟩

/-- The column of that word that feature `k` is. -/
def colOf (k : Fin 1280) : Fin 256 := ⟨k.val % 256, Nat.mod_lt _ (by decide)⟩

/-- Window `t` of sentence `s` projected onto hidden unit `h` (no bias). -/
def proj (x : (⟨3, ![32, 512, 256]⟩ : Shape).Idx → EReal) (W : (⟨2, ![1024, 1280]⟩ : Shape).Idx → EReal)
    (s : Fin 32) (h : Fin 1024) (t : Fin 508) : EReal :=
  ∑ k : Fin 1280, x (ix3 s (wordOf t k) (colOf k)) * W (ix2 h k)

/-- The pooled result: the maximum over the windows, then the bias, then the clip at zero. -/
def pooled (x : (⟨3, ![32, 512, 256]⟩ : Shape).Idx → EReal) (W : (⟨2, ![1024, 1280]⟩ : Shape).Idx → EReal)
    (bias : (⟨1, ![1024]⟩ : Shape).Idx → EReal) : (⟨2, ![32, 1024]⟩ : Shape).Idx → EReal :=
  fun i => max (Finset.univ.fold max ⊥ (proj x W (i 0) (i 1)) + bias (ix1 (i 1))) 0

/-- Adding a constant to every term of a maximum taken from `⊥` adds it to the maximum. -/
theorem fold_max_add_const {ι : Type*} (s : Finset ι) (f : ι → EReal) (c : EReal) :
    s.fold max ⊥ (fun t => f t + c) = s.fold max ⊥ f + c := by
  have hm : ∀ a b : EReal, max a b + c = max (a + c) (b + c) := fun a b =>
    (show Monotone fun y : EReal => y + c from fun _ _ hab => add_le_add hab le_rfl).map_max
  have h := Finset.fold_hom (op := max) (op' := max) (s := s) (b := (⊥ : EReal)) (f := f) (m := fun y => y + c) hm
  rw [← h, EReal.bot_add]

/-- A maximum over 508 terms is the maximum of the maxima over four consecutive stretches of
    128, 128, 128 and 124 terms, however the partial maxima are nested and started. -/
theorem fold_max_stretches (f : Fin 508 → EReal) :
    max (max (max (max ⊥
        (Finset.univ.fold max ⊥ fun r : Fin 128 => f ⟨0 + r.val, by omega⟩))
        (Finset.univ.fold max ⊥ fun r : Fin 128 => f ⟨128 + r.val, by omega⟩))
        (Finset.univ.fold max ⊥ fun r : Fin 128 => f ⟨256 + r.val, by omega⟩))
        (Finset.univ.fold max ⊥ fun r : Fin 124 => f ⟨384 + r.val, by omega⟩)
      = Finset.univ.fold max ⊥ f := by
  refine eq_of_forall_ge_iff fun a => ?_
  simp only [max_le_iff, Finset.fold_max_le, bot_le, true_and, Finset.mem_univ, forall_true_left]
  constructor
  · rintro ⟨⟨⟨h0, h1⟩, h2⟩, h3⟩ t
    by_cases c0 : t.val < 128
    · have e : (⟨0 + t.val, by omega⟩ : Fin 508) = t := Fin.ext (by show 0 + t.val = t.val; omega)
      have := h0 ⟨t.val, c0⟩
      rwa [e] at this
    by_cases c1 : t.val < 256
    · have e : (⟨128 + (t.val - 128), by omega⟩ : Fin 508) = t := Fin.ext (by show 128 + (t.val - 128) = t.val; omega)
      have := h1 ⟨t.val - 128, by omega⟩
      rwa [e] at this
    by_cases c2 : t.val < 384
    · have e : (⟨256 + (t.val - 256), by omega⟩ : Fin 508) = t := Fin.ext (by show 256 + (t.val - 256) = t.val; omega)
      have := h2 ⟨t.val - 256, by omega⟩
      rwa [e] at this
    · have e : (⟨384 + (t.val - 384), by omega⟩ : Fin 508) = t := Fin.ext (by show 384 + (t.val - 384) = t.val; omega)
      have := h3 ⟨t.val - 384, by have := t.isLt; omega⟩
      rwa [e] at this
  · intro h
    exact ⟨⟨⟨fun r => h _, fun r => h _⟩, fun r => h _⟩, fun r => h _⟩

end Cert.WindowPool

end
-- ==== Proof.Reference.lean ====
/-
  The reference computes the pooled function.

  The reference stacks each sentence's 508 windows of five words by a gather through a table of word numbers (entry
  (t, w) is t + w: the two counters never wrap and are never negative, so the table's wrap-around select keeps t + w,
  and the gather's clamp into the sentence changes nothing), reshapes them to rows of 1280 features, projects the rows by
  the weights, adds the bias to every projection, takes the maximum over the windows from `-∞` and clips at zero.
  Adding the bias commutes with that maximum (`WindowPool.fold_max_add_const`), which gives `WindowPool.pooled`.
-/
import proofs.«423993_j35716948033851_3_alg».proof.Proof.RefRead
import proofs.«423993_j35716948033851_3_alg».proof.Proof.WindowPool
import Idealize.ShloMosaic.Lib.StableHlo.Predicate

noncomputable section

/-! ## The reference is the pooled function -/

namespace Cert.ReferenceIdeal.Pooled

open Idealize.ShloMosaic Idealize.ShloMosaic.ValueIdx Cert.ReferenceIdeal Cert.ReferenceIdeal.Gen Cert.ReferenceIdeal.ReadP Cert.WindowPool

/-- The pattern of `-∞` denotes the bottom of the extended reals. -/
theorem neg_inf : Ideal.ofBits .f32 0xFF800000#32 = (⊥ : EReal) := by
  simp [Ideal.ofBits, Ideal.ieee]

/-- The gather of the window table reads, at (sentence, window, position, column), the sentence's word whose number the
    table holds at (window, position) (read signed, clamped into the sentence), at that column. -/
theorem gather_window {α : Type} (x : S32x512x256.Idx → α) (idx : IVec S508x5x1 32)
    (s : Fin 32) (t : Fin 508) (w : Fin 5) (e : Fin 256) :
    Host.gather gather_S32x512x256_S508x5x1_S32x508x5x256_03_1_n_n_1_2_321256 x idx (ix4 s t w e)
      = x (ix3 s ⟨min (idx (ix3 t w (0 : Fin 1))).toInt.toNat 511, by omega⟩ e) := by
  unfold Host.gather
  congr 1
  funext a
  refine Fin.ext ?_
  match a with
  | ⟨0, _⟩ =>
    show gather_S32x512x256_S508x5x1_S32x508x5x256_03_1_n_n_1_2_321256.start (ix4 s t w e) idx 0
      + gather_S32x512x256_S508x5x1_S32x508x5x256_03_1_n_n_1_2_321256.batchCoord (ix4 s t w e) 0
      + gather_S32x512x256_S508x5x1_S32x508x5x256_03_1_n_n_1_2_321256.offCoord (ix4 s t w e) 0 = s.val
    rw [GatherDims.batchCoord_eq_zero _ _ _ List.not_mem_nil]
    unfold GatherDims.start GatherDims.offCoord
    rw [dif_neg (by decide), dif_pos (by decide), Nat.zero_add]
    with_unfolding_all rfl
  | ⟨1, _⟩ =>
    show gather_S32x512x256_S508x5x1_S32x508x5x256_03_1_n_n_1_2_321256.start (ix4 s t w e) idx 1
      + gather_S32x512x256_S508x5x1_S32x508x5x256_03_1_n_n_1_2_321256.batchCoord (ix4 s t w e) 1
      + gather_S32x512x256_S508x5x1_S32x508x5x256_03_1_n_n_1_2_321256.offCoord (ix4 s t w e) 1 = _
    rw [GatherDims.batchCoord_eq_zero _ _ _ List.not_mem_nil,
      GatherDims.offCoord_eq_zero _ _ _ (by decide)]
    simp only [Nat.add_zero]
    unfold GatherDims.start
    rw [dif_pos (by decide)]
    have hsi : gather_S32x512x256_S508x5x1_S32x508x5x256_03_1_n_n_1_2_321256.siIdx (ix4 s t w e)
        ⟨List.idxOf (1 : Fin 3) gather_S32x512x256_S508x5x1_S32x508x5x256_03_1_n_n_1_2_321256.startIndexMap,
          List.idxOf_lt_length_iff.2 (by decide)⟩ = ix3 t w (0 : Fin 1) := by
      funext b; refine Fin.ext ?_
      match b with
      | ⟨0, _⟩ => rfl
      | ⟨1, _⟩ => rfl
      | ⟨2, _⟩ => rfl
    rw [hsi]
    rfl
  | ⟨2, _⟩ =>
    show gather_S32x512x256_S508x5x1_S32x508x5x256_03_1_n_n_1_2_321256.start (ix4 s t w e) idx 2
      + gather_S32x512x256_S508x5x1_S32x508x5x256_03_1_n_n_1_2_321256.batchCoord (ix4 s t w e) 2
      + gather_S32x512x256_S508x5x1_S32x508x5x256_03_1_n_n_1_2_321256.offCoord (ix4 s t w e) 2 = e.val
    rw [GatherDims.batchCoord_eq_zero _ _ _ List.not_mem_nil]
    unfold GatherDims.start GatherDims.offCoord
    rw [dif_neg (by decide), dif_pos (by decide), Nat.zero_add]
    with_unfolding_all rfl

/-- The window table holds, at (window `t`, position `w`), the word number `t + w`: the two counters added as 32-bit words
    never wrap and are never negative, so the wrap-around branch of the table's select is not taken. -/
theorem table_entry (t : Fin 508) (w : Fin 5) :
    (val_main_v12 (F := Ideal) (ix3 t w (0 : Fin 1))).toInt.toNat = t.val + w.val := by
  have ht := t.isLt
  have hw := w.isLt
  rw [val_main_v12_apply, val_main_v11_apply, val_main_v8_apply, val_main_v10_apply, val_main_v6_apply,
    val_main_v7_apply, val_main_v9_apply, val_main_c_apply, val_main_c_0_apply, val_main_v4_apply, val_main_v5_apply,
    val_main_v1_apply, val_main_v3_apply, val_main_v0_apply, val_main_v2_apply]
  show (Scalar.select (IntOp.cmpi .slt (IntOp.addi (BitVec.ofNat 32 t.val) (BitVec.ofNat 32 w.val)) 0#32)
      (IntOp.addi (IntOp.addi (BitVec.ofNat 32 t.val) (BitVec.ofNat 32 w.val)) 512#32)
      (IntOp.addi (BitVec.ofNat 32 t.val) (BitVec.ofNat 32 w.val))).toInt.toNat = t.val + w.val
  have hA : IntOp.addi (BitVec.ofNat 32 t.val) (BitVec.ofNat 32 w.val) = BitVec.ofNat 32 (t.val + w.val) := by
    unfold IntOp.addi
    exact (BitVec.ofNat_add _ _).symm
  rw [hA]
  have hlt : (BitVec.ofNat 32 (t.val + w.val)).toNat = t.val + w.val := by
    rw [BitVec.toNat_ofNat]
    exact Nat.mod_eq_of_lt (by omega)
  have hn : ¬ IntOp.cmpi .slt (BitVec.ofNat 32 (t.val + w.val)) 0#32 = 1#1 := by
    rw [StableHlo.Predicate.slt_iff_toNat (by rw [hlt]; omega) (by decide)]
    simp
  unfold Scalar.select
  rw [if_neg (show ¬ (IntOp.cmpi .slt (BitVec.ofNat 32 (t.val + w.val)) 0#32 = 1) from hn),
    StableHlo.Predicate.toInt_eq_toNat_of_lt (by rw [hlt]; omega), hlt]
  rfl

end Cert.ReferenceIdeal.Pooled

namespace Cert.ReferenceIdeal.Pooled

open Idealize.ShloMosaic Idealize.ShloMosaic.ValueIdx Cert.ReferenceIdeal Cert.ReferenceIdeal.Gen Cert.ReferenceIdeal.ReadP Cert.WindowPool

/-- The reference's stacked windows: feature `k` of window `t` of sentence `s` is column `k % 256` of word `t + k / 256`. -/
theorem windows_apply (x0 : (⟨S32x512x256, .f32⟩ : BufTy).Contents (Elt Ideal)) (s : Fin 32) (t : Fin 508) (k : Fin 1280) :
    val_main_v14 (F := Ideal) x0 (ix3 s t k) = x0 (ix3 s (wordOf t k) (colOf k)) := by
  have hs := s.isLt
  have ht := t.isLt
  have hk := k.isLt
  rw [val_main_v14_apply]
  have hi : idx_main_v14 (ix3 s t k)
      = ix4 s t (⟨k.val / 256, by omega⟩ : Fin 5) (⟨k.val % 256, Nat.mod_lt _ (by decide)⟩ : Fin 256) :=
    funext fun a => Fin.ext (by
      match a with
      | ⟨0, _⟩ => show ((s.val * 508 + t.val) * 1280 + k.val) / 650240 = s.val; omega
      | ⟨1, _⟩ => show ((s.val * 508 + t.val) * 1280 + k.val) / 1280 % 508 = t.val; omega
      | ⟨2, _⟩ => show ((s.val * 508 + t.val) * 1280 + k.val) / 256 % 5 = k.val / 256; omega
      | ⟨3, _⟩ => show ((s.val * 508 + t.val) * 1280 + k.val) % 256 = k.val % 256; omega)
  rw [hi]
  unfold val_main_v13
  rw [gather_window]
  refine congrArg x0 (funext fun a => Fin.ext ?_)
  match a with
  | ⟨0, _⟩ => rfl
  | ⟨1, _⟩ =>
    show min (val_main_v12 (F := Ideal) (ix3 t (⟨k.val / 256, by omega⟩ : Fin 5) (0 : Fin 1))).toInt.toNat 511 = t.val + k.val / 256
    rw [table_entry]
    show min (t.val + k.val / 256) 511 = t.val + k.val / 256
    omega
  | ⟨2, _⟩ => rfl

/-- The reference's result is the pooled function of its three arguments: the projections of the stacked windows, the bias
    added to every window's projection, the maximum over the windows from `-∞`, the clip at zero. The bias moves out of the
    maximum by `fold_max_add_const`. -/
theorem reference_eq (x0 : (⟨S32x512x256, .f32⟩ : BufTy).Contents (Elt Ideal)) (x1 : (⟨S1024x1280, .f32⟩ : BufTy).Contents (Elt Ideal))
    (x2 : (⟨S1024, .f32⟩ : BufTy).Contents (Elt Ideal)) :
    val_main_v20 (F := Ideal) x0 x1 x2 = pooled x0 x1 x2 := by
  funext i
  obtain ⟨s, h, rfl⟩ : ∃ (s : Fin 32) (h : Fin 1024), i = ix2 s h := ⟨i 0, i 1, eq_ix2 i⟩
  have hred : S32x508x1024.Reduces [1] S32x1024 := by decide
  rw [val_main_v20_apply, val_main_call0_v0_apply, val_main_call0_cst_apply]
  show max (val_main_v19 (F := Ideal) x0 x1 x2 (ix2 s h)) (Ideal.ofBits .f32 0x00000000#32) = _
  rw [Ideal.ofBits_zero_f32]
  unfold pooled
  refine congrArg (fun z : EReal => max z 0) ?_
  show val_main_v19 (F := Ideal) x0 x1 x2 (ix2 s h) = Finset.univ.fold max ⊥ (proj x0 x1 s h) + x2 (ix1 h)
  unfold val_main_v19
  refine (Host.reduce_eq_fold_single (FloatOps.maximumf (F := Ideal) (φ := .f32)) (val_main_v18 (F := Ideal) x0 x1 x2) (val_main_cst (F := Ideal))
    reducesTo_S32x508x1024_S32x1024_d1 hred h_S_ (ix2 s h)).trans ?_
  rw [← fold_max_add_const]
  show Finset.univ.fold max (Ideal.ofBits .f32 0xFF800000#32) _ = _
  rw [neg_inf]
  have key : ∀ t : Fin 508, val_main_v18 (F := Ideal) x0 x1 x2 (hred.lift (ix2 s h) t) = proj x0 x1 s h t + x2 (ix1 h) := by
    intro t
    have hl : hred.lift (ix2 s h) t = ix3 s t h := funext fun a => Fin.ext (by
      match a with
      | ⟨0, _⟩ => rfl
      | ⟨1, _⟩ => rfl
      | ⟨2, _⟩ => rfl)
    rw [hl, val_main_v18_apply, val_main_v15_apply, val_main_v17_apply, val_main_v16_apply]
    show (∑ k : Fin 1280, val_main_v14 (F := Ideal) x0 (lidx_main_v15 (ix3 s t h) k) * x1 (ridx_main_v15 (ix3 s t h) k))
        + x2 (idx_main_v16 (idx_main_v17 (ix3 s t h))) = proj x0 x1 s h t + x2 (ix1 h)
    refine congrArg₂ (fun a b : EReal => a + b) ?_ ?_
    · unfold proj
      refine Finset.sum_congr rfl fun k _ => ?_
      have el : lidx_main_v15 (ix3 s t h) k = ix3 s t k := funext fun a => Fin.ext (by
        match a with
        | ⟨0, _⟩ => rfl
        | ⟨1, _⟩ => rfl
        | ⟨2, _⟩ => rfl)
      have er : ridx_main_v15 (ix3 s t h) k = ix2 h k := funext fun a => Fin.ext (by
        match a with
        | ⟨0, _⟩ => rfl
        | ⟨1, _⟩ => rfl)
      rw [el, er, windows_apply]
    · exact congrArg x2 (funext fun a => Fin.ext (by
        match a with
        | ⟨0, _⟩ => rfl))
  exact Finset.fold_congr fun t _ => key t

end Cert.ReferenceIdeal.Pooled

end
-- ==== Proof.Stretch.lean ====
/-
  One stretch of windows inside a block of eight sentences.

  The block's words, five slices of them one word apart, are laid side by side so that row `r` of a slice group is
  window `o0 + r`; the rows of all eight sentences are stacked into one matrix, multiplied by the weights, and
  regrouped by sentence; the maximum over the rows of a sentence, started from `-∞`, is the maximum over the
  stretch of that sentence's window projections.  Stated for stretches of 128 and of 124 windows.
-/
import proofs.«423993_j35716948033851_3_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stretch

open Idealize.ShloMosaic Idealize.ShloMosaic.ValueIdx Cert.KernelIdeal Cert.KernelIdeal.Facts₀

/-- The pattern of `-∞` denotes the bottom of the extended reals. -/
theorem neg_inf : Ideal.ofBits .f32 0xFF800000#32 = (⊥ : EReal) := by
  simp [Ideal.ofBits, Ideal.ieee]

/-! ## A stretch of 128 windows -/

theorem lhs128_0 (i : S1024x1024.Idx) (q : dot_S1024x1280_S1280x1024_S1024x1024_1_0_0_1_n_n.contr.Idx) :
    (dot_S1024x1280_S1280x1024_S1024x1024_1_0_0_1_n_n.lhsIdx i q 0).val = (i 0).val := by
  unfold DotDims.lhsIdx
  rw [dif_neg (show ¬(0 : Fin S1024x1280.rank) ∈ dot_S1024x1280_S1280x1024_S1024x1024_1_0_0_1_n_n.lhsBatch by decide), dif_pos (show (0 : Fin S1024x1280.rank) ∈ dot_S1024x1280_S1280x1024_S1024x1024_1_0_0_1_n_n.lhsNonContracting by decide)]
  rfl
theorem lhs128_1 (i : S1024x1024.Idx) (q : dot_S1024x1280_S1280x1024_S1024x1024_1_0_0_1_n_n.contr.Idx) :
    (dot_S1024x1280_S1280x1024_S1024x1024_1_0_0_1_n_n.lhsIdx i q 1).val = (q ⟨0, by decide⟩).val :=
  dot_S1024x1280_S1280x1024_S1024x1024_1_0_0_1_n_n.lhsIdx_val_of_single rfl i q
theorem rhs128_0 (i : S1024x1024.Idx) (q : dot_S1024x1280_S1280x1024_S1024x1024_1_0_0_1_n_n.contr.Idx) :
    (dot_S1024x1280_S1280x1024_S1024x1024_1_0_0_1_n_n.rhsIdx i q 0).val = (q ⟨0, by decide⟩).val :=
  dot_S1024x1280_S1280x1024_S1024x1024_1_0_0_1_n_n.rhsIdx_val_of_single rfl i q
theorem rhs128_1 (i : S1024x1024.Idx) (q : dot_S1024x1280_S1280x1024_S1024x1024_1_0_0_1_n_n.contr.Idx) :
    (dot_S1024x1280_S1280x1024_S1024x1024_1_0_0_1_n_n.rhsIdx i q 1).val = (i 1).val := by
  unfold DotDims.rhsIdx
  rw [dif_neg (show ¬(1 : Fin S1280x1024.rank) ∈ dot_S1024x1280_S1280x1024_S1024x1024_1_0_0_1_n_n.rhsBatch by decide), dif_pos (show (1 : Fin S1280x1024.rank) ∈ dot_S1024x1280_S1280x1024_S1024x1024_1_0_0_1_n_n.rhsNonContracting by decide)]
  rfl

/-- The product of a [1024, 1280] matrix of window rows with the [1280, 1024] weights, into zero: entry (a, b) is the
    sum over the 1280 features of row a times column b. -/
theorem matmul128_apply (l : FVec Ideal S1024x1280 .bf16) (wt : FVec Ideal S1280x1024 .bf16) (a : Fin 1024) (b : Fin 1024) :
    matmul dot_S1024x1280_S1280x1024_S1024x1024_1_0_0_1_n_n none l wt (constant S1024x1024 .f32 0x00000000#32) (ix2 a b)
      = ∑ k : Fin 1280, l (ix2 a k) * wt (ix2 k b) := by
  simp only [matmul]
  rw [Ideal.matmul_constant_zero_apply, ← Equiv.sum_comp (contrEquiv1 dot_S1024x1280_S1280x1024_S1024x1024_1_0_0_1_n_n 1280 rfl rfl).symm]
  refine Finset.sum_congr rfl fun k _ => ?_
  have hk := contrEquiv1_symm_val dot_S1024x1280_S1280x1024_S1024x1024_1_0_0_1_n_n 1280 rfl rfl k
  have el : dot_S1024x1280_S1280x1024_S1024x1024_1_0_0_1_n_n.lhsIdx (ix2 a b) ((contrEquiv1 dot_S1024x1280_S1280x1024_S1024x1024_1_0_0_1_n_n 1280 rfl rfl).symm k) = ix2 a k := funext fun x => Fin.ext (by
    match x with
    | ⟨0, _⟩ => exact lhs128_0 _ _
    | ⟨1, _⟩ => exact (lhs128_1 _ _).trans hk)
  have er : dot_S1024x1280_S1280x1024_S1024x1024_1_0_0_1_n_n.rhsIdx (ix2 a b) ((contrEquiv1 dot_S1024x1280_S1280x1024_S1024x1024_1_0_0_1_n_n 1280 rfl rfl).symm k) = ix2 k b := funext fun x => Fin.ext (by
    match x with
    | ⟨0, _⟩ => exact (rhs128_0 _ _).trans hk
    | ⟨1, _⟩ => exact rhs128_1 _ _)
  rw [el, er]

/-- Five slices of a block of sentences, each 128 words long and starting one word after the one before, laid side by
    side: feature `k` of row `r` is column `k % 256` of word `o0 + r + k / 256`. -/
theorem windows128_apply (xb : FVec Ideal S8x512x256 .bf16) (o0 o1 o2 o3 o4 : Nat)
    (h0 : S8x512x256.Slices ![0, o0, 0] S8x128x256) (h1 : S8x512x256.Slices ![0, o1, 0] S8x128x256)
    (h2 : S8x512x256.Slices ![0, o2, 0] S8x128x256) (h3 : S8x512x256.Slices ![0, o3, 0] S8x128x256)
    (h4 : S8x512x256.Slices ![0, o4, 0] S8x128x256)
    (e1 : o1 = o0 + 1) (e2 : o2 = o0 + 2) (e3 : o3 = o0 + 3) (e4 : o4 = o0 + 4) (hb : o0 + 132 ≤ 512)
    (p : Fin 8) (r : Fin 128) (k : Fin 1280) :
    concatenate S8x128x1280 2 [⟨S8x128x256, extractStridedSlice S8x128x256 ![0, o0, 0] xb h0⟩, ⟨S8x128x256, extractStridedSlice S8x128x256 ![0, o1, 0] xb h1⟩, ⟨S8x128x256, extractStridedSlice S8x128x256 ![0, o2, 0] xb h2⟩, ⟨S8x128x256, extractStridedSlice S8x128x256 ![0, o3, 0] xb h3⟩, ⟨S8x128x256, extractStridedSlice S8x128x256 ![0, o4, 0] xb h4⟩] concatenates_S8x128x256_S8x128x256_S8x128x256_S8x128x256_S8x128x256_S8x128x1280_d2 (ix3 p r k)
      = xb (ix3 p ⟨o0 + r.val + k.val / 256, by have := r.isLt; have := k.isLt; omega⟩ ⟨k.val % 256, Nat.mod_lt _ (by decide)⟩) := by
  have hk := k.isLt
  have hr := r.isLt
  have hc' : Shape.Concatenates (List.map (fun x => x.1) ([⟨S8x128x256, extractStridedSlice S8x128x256 ![0, o0, 0] xb h0⟩, ⟨S8x128x256, extractStridedSlice S8x128x256 ![0, o1, 0] xb h1⟩, ⟨S8x128x256, extractStridedSlice S8x128x256 ![0, o2, 0] xb h2⟩, ⟨S8x128x256, extractStridedSlice S8x128x256 ![0, o3, 0] xb h3⟩, ⟨S8x128x256, extractStridedSlice S8x128x256 ![0, o4, 0] xb h4⟩] : List ((s : Shape) × (s.Idx → Ideal .bf16)))) S8x128x1280 (2 : Fin 3) := concatenates_S8x128x256_S8x128x256_S8x128x256_S8x128x256_S8x128x256_S8x128x1280_d2
  have e0 : o0 = o0 + 0 := rfl
  rcases (show k.val / 256 = 0 ∨ k.val / 256 = 1 ∨ k.val / 256 = 2 ∨ k.val / 256 = 3 ∨ k.val / 256 = 4 by omega) with c | c | c | c | c
  · refine (concatenate_apply_piece (2 : Fin 3) _ hc' (ix3 p r k) 0 (by show 0 < 5; decide) S8x128x256 _ rfl rfl 0 rfl
        (ix3 p r ⟨k.val % 256, Nat.mod_lt _ (by decide)⟩) ?_ ?_).trans ?_
    · intro b hb
      match b with
      | ⟨0, _⟩ => rfl
      | ⟨1, _⟩ => rfl
      | ⟨2, _⟩ => exact absurd (Fin.ext rfl) hb
    · show 0 + k.val % 256 = k.val
      omega
    · exact slice3_axis1_apply o0 xb h0 p r ⟨k.val % 256, Nat.mod_lt _ (by decide)⟩ ⟨o0 + r.val + k.val / 256, by omega⟩
        (by show o0 + r.val + k.val / 256 = o0 + r.val; omega)
  · refine (concatenate_apply_piece (2 : Fin 3) _ hc' (ix3 p r k) 1 (by show 1 < 5; decide) S8x128x256 _ rfl rfl 256 rfl
        (ix3 p r ⟨k.val % 256, Nat.mod_lt _ (by decide)⟩) ?_ ?_).trans ?_
    · intro b hb
      match b with
      | ⟨0, _⟩ => rfl
      | ⟨1, _⟩ => rfl
      | ⟨2, _⟩ => exact absurd (Fin.ext rfl) hb
    · show 256 + k.val % 256 = k.val
      omega
    · exact slice3_axis1_apply o1 xb h1 p r ⟨k.val % 256, Nat.mod_lt _ (by decide)⟩ ⟨o0 + r.val + k.val / 256, by omega⟩
        (by show o0 + r.val + k.val / 256 = o1 + r.val; omega)
  · refine (concatenate_apply_piece (2 : Fin 3) _ hc' (ix3 p r k) 2 (by show 2 < 5; decide) S8x128x256 _ rfl rfl 512 rfl
        (ix3 p r ⟨k.val % 256, Nat.mod_lt _ (by decide)⟩) ?_ ?_).trans ?_
    · intro b hb
      match b with
      | ⟨0, _⟩ => rfl
      | ⟨1, _⟩ => rfl
      | ⟨2, _⟩ => exact absurd (Fin.ext rfl) hb
    · show 512 + k.val % 256 = k.val
      omega
    · exact slice3_axis1_apply o2 xb h2 p r ⟨k.val % 256, Nat.mod_lt _ (by decide)⟩ ⟨o0 + r.val + k.val / 256, by omega⟩
        (by show o0 + r.val + k.val / 256 = o2 + r.val; omega)
  · refine (concatenate_apply_piece (2 : Fin 3) _ hc' (ix3 p r k) 3 (by show 3 < 5; decide) S8x128x256 _ rfl rfl 768 rfl
        (ix3 p r ⟨k.val % 256, Nat.mod_lt _ (by decide)⟩) ?_ ?_).trans ?_
    · intro b hb
      match b with
      | ⟨0, _⟩ => rfl
      | ⟨1, _⟩ => rfl
      | ⟨2, _⟩ => exact absurd (Fin.ext rfl) hb
    · show 768 + k.val % 256 = k.val
      omega
    · exact slice3_axis1_apply o3 xb h3 p r ⟨k.val % 256, Nat.mod_lt _ (by decide)⟩ ⟨o0 + r.val + k.val / 256, by omega⟩
        (by show o0 + r.val + k.val / 256 = o3 + r.val; omega)
  · refine (concatenate_apply_piece (2 : Fin 3) _ hc' (ix3 p r k) 4 (by show 4 < 5; decide) S8x128x256 _ rfl rfl 1024 rfl
        (ix3 p r ⟨k.val % 256, Nat.mod_lt _ (by decide)⟩) ?_ ?_).trans ?_
    · intro b hb
      match b with
      | ⟨0, _⟩ => rfl
      | ⟨1, _⟩ => rfl
      | ⟨2, _⟩ => exact absurd (Fin.ext rfl) hb
    · show 1024 + k.val % 256 = k.val
      omega
    · exact slice3_axis1_apply o4 xb h4 p r ⟨k.val % 256, Nat.mod_lt _ (by decide)⟩ ⟨o0 + r.val + k.val / 256, by omega⟩
        (by show o0 + r.val + k.val / 256 = o4 + r.val; omega)

/-- The maximum over a stretch of 128 windows, for sentence `p` of the block and hidden unit `h`: the windows as rows of
    one matrix, the product with the weights, the rows regrouped by sentence, the maximum over the stretch from `-∞`. -/
theorem stretch128_apply (xb : FVec Ideal S8x512x256 .bf16) (wt : FVec Ideal S1280x1024 .bf16) (o0 o1 o2 o3 o4 : Nat)
    (h0 : S8x512x256.Slices ![0, o0, 0] S8x128x256) (h1 : S8x512x256.Slices ![0, o1, 0] S8x128x256)
    (h2 : S8x512x256.Slices ![0, o2, 0] S8x128x256) (h3 : S8x512x256.Slices ![0, o3, 0] S8x128x256)
    (h4 : S8x512x256.Slices ![0, o4, 0] S8x128x256)
    (e1 : o1 = o0 + 1) (e2 : o2 = o0 + 2) (e3 : o3 = o0 + 3) (e4 : o4 = o0 + 4) (hb : o0 + 132 ≤ 512)
    (hφ : FKind.Formats .f32) (hacc : (0xFF800000#32 : BitVec (FTy.f32).bits) = FKind.maximumf.neutral .f32 hφ)
    (p : Fin 8) (h : Fin 1024) :
    multiReduction (F := Ideal) .maximumf [1] S8x1024
        (shapeCast S8x128x1024
          (matmul dot_S1024x1280_S1280x1024_S1024x1024_1_0_0_1_n_n none
            (shapeCast S1024x1280
              (concatenate S8x128x1280 2 [⟨S8x128x256, extractStridedSlice S8x128x256 ![0, o0, 0] xb h0⟩, ⟨S8x128x256, extractStridedSlice S8x128x256 ![0, o1, 0] xb h1⟩, ⟨S8x128x256, extractStridedSlice S8x128x256 ![0, o2, 0] xb h2⟩, ⟨S8x128x256, extractStridedSlice S8x128x256 ![0, o3, 0] xb h3⟩, ⟨S8x128x256, extractStridedSlice S8x128x256 ![0, o4, 0] xb h4⟩] concatenates_S8x128x256_S8x128x256_S8x128x256_S8x128x256_S8x128x256_S8x128x1280_d2)
              shapeCasts_S8x128x1280_S1024x1280)
            wt (constant S1024x1024 .f32 0x00000000#32))
          shapeCasts_S1024x1024_S8x128x1024)
        0xFF800000#32 reduces_S8x128x1024_S8x1024 hφ hacc (ix2 p h)
      = Finset.univ.fold max ⊥ (fun r : Fin 128 => ∑ k : Fin 1280,
          xb (ix3 p ⟨o0 + r.val + k.val / 256, by have := r.isLt; have := k.isLt; omega⟩ ⟨k.val % 256, Nat.mod_lt _ (by decide)⟩) * wt (ix2 k h)) := by
  refine (Ideal.multiReduction_maximumf_single _ _ reduces_S8x128x1024_S8x1024 hφ hacc (ix2 p h)).trans ?_
  rw [show FloatOps.ofBits (F := Ideal) .f32 0xFF800000#32 = (⊥ : EReal) from neg_inf]
  refine Finset.fold_congr fun r _ => ?_
  have hl : reduces_S8x128x1024_S8x1024.lift (ix2 p h) r = ix3 p r h := funext fun a => Fin.ext (by
    match a with
    | ⟨0, _⟩ => rfl
    | ⟨1, _⟩ => rfl
    | ⟨2, _⟩ => rfl)
  show shapeCast S8x128x1024 _ shapeCasts_S1024x1024_S8x128x1024 (reduces_S8x128x1024_S8x1024.lift (ix2 p h) r) = _
  rw [hl]
  have hr : r.val < 128 := r.isLt
  have hrow : p.val * 128 + r.val < 1024 := by have := p.isLt; omega
  refine (shapeCast_apply _ shapeCasts_S1024x1024_S8x128x1024 (ix3 p r h) (ix2 ⟨p.val * 128 + r.val, hrow⟩ h) (by
    rw [Shape.rowMajor_val_two, Shape.rowMajor_val_three]
    show (p.val * 128 + r.val) * 1024 + h.val = (p.val * 128 + r.val) * 1024 + h.val
    rfl)).trans ?_
  rw [matmul128_apply]
  refine Finset.sum_congr rfl fun k _ => ?_
  congr 1
  refine (shapeCast_apply _ shapeCasts_S8x128x1280_S1024x1280 (ix2 ⟨p.val * 128 + r.val, hrow⟩ k) (ix3 p r k) (by
    rw [Shape.rowMajor_val_two, Shape.rowMajor_val_three]
    show (p.val * 128 + r.val) * 1280 + k.val = (p.val * 128 + r.val) * 1280 + k.val
    rfl)).trans ?_
  exact windows128_apply xb o0 o1 o2 o3 o4 h0 h1 h2 h3 h4 e1 e2 e3 e4 hb p r k

/-! ## A stretch of 124 windows -/

theorem lhs124_0 (i : S992x1024.Idx) (q : dot_S992x1280_S1280x1024_S992x1024_1_0_0_1_n_n.contr.Idx) :
    (dot_S992x1280_S1280x1024_S992x1024_1_0_0_1_n_n.lhsIdx i q 0).val = (i 0).val := by
  unfold DotDims.lhsIdx
  rw [dif_neg (show ¬(0 : Fin S992x1280.rank) ∈ dot_S992x1280_S1280x1024_S992x1024_1_0_0_1_n_n.lhsBatch by decide), dif_pos (show (0 : Fin S992x1280.rank) ∈ dot_S992x1280_S1280x1024_S992x1024_1_0_0_1_n_n.lhsNonContracting by decide)]
  rfl
theorem lhs124_1 (i : S992x1024.Idx) (q : dot_S992x1280_S1280x1024_S992x1024_1_0_0_1_n_n.contr.Idx) :
    (dot_S992x1280_S1280x1024_S992x1024_1_0_0_1_n_n.lhsIdx i q 1).val = (q ⟨0, by decide⟩).val :=
  dot_S992x1280_S1280x1024_S992x1024_1_0_0_1_n_n.lhsIdx_val_of_single rfl i q
theorem rhs124_0 (i : S992x1024.Idx) (q : dot_S992x1280_S1280x1024_S992x1024_1_0_0_1_n_n.contr.Idx) :
    (dot_S992x1280_S1280x1024_S992x1024_1_0_0_1_n_n.rhsIdx i q 0).val = (q ⟨0, by decide⟩).val :=
  dot_S992x1280_S1280x1024_S992x1024_1_0_0_1_n_n.rhsIdx_val_of_single rfl i q
theorem rhs124_1 (i : S992x1024.Idx) (q : dot_S992x1280_S1280x1024_S992x1024_1_0_0_1_n_n.contr.Idx) :
    (dot_S992x1280_S1280x1024_S992x1024_1_0_0_1_n_n.rhsIdx i q 1).val = (i 1).val := by
  unfold DotDims.rhsIdx
  rw [dif_neg (show ¬(1 : Fin S1280x1024.rank) ∈ dot_S992x1280_S1280x1024_S992x1024_1_0_0_1_n_n.rhsBatch by decide), dif_pos (show (1 : Fin S1280x1024.rank) ∈ dot_S992x1280_S1280x1024_S992x1024_1_0_0_1_n_n.rhsNonContracting by decide)]
  rfl

/-- The product of a [992, 1280] matrix of window rows with the [1280, 1024] weights, into zero: entry (a, b) is the
    sum over the 1280 features of row a times column b. -/
theorem matmul124_apply (l : FVec Ideal S992x1280 .bf16) (wt : FVec Ideal S1280x1024 .bf16) (a : Fin 992) (b : Fin 1024) :
    matmul dot_S992x1280_S1280x1024_S992x1024_1_0_0_1_n_n none l wt (constant S992x1024 .f32 0x00000000#32) (ix2 a b)
      = ∑ k : Fin 1280, l (ix2 a k) * wt (ix2 k b) := by
  simp only [matmul]
  rw [Ideal.matmul_constant_zero_apply, ← Equiv.sum_comp (contrEquiv1 dot_S992x1280_S1280x1024_S992x1024_1_0_0_1_n_n 1280 rfl rfl).symm]
  refine Finset.sum_congr rfl fun k _ => ?_
  have hk := contrEquiv1_symm_val dot_S992x1280_S1280x1024_S992x1024_1_0_0_1_n_n 1280 rfl rfl k
  have el : dot_S992x1280_S1280x1024_S992x1024_1_0_0_1_n_n.lhsIdx (ix2 a b) ((contrEquiv1 dot_S992x1280_S1280x1024_S992x1024_1_0_0_1_n_n 1280 rfl rfl).symm k) = ix2 a k := funext fun x => Fin.ext (by
    match x with
    | ⟨0, _⟩ => exact lhs124_0 _ _
    | ⟨1, _⟩ => exact (lhs124_1 _ _).trans hk)
  have er : dot_S992x1280_S1280x1024_S992x1024_1_0_0_1_n_n.rhsIdx (ix2 a b) ((contrEquiv1 dot_S992x1280_S1280x1024_S992x1024_1_0_0_1_n_n 1280 rfl rfl).symm k) = ix2 k b := funext fun x => Fin.ext (by
    match x with
    | ⟨0, _⟩ => exact (rhs124_0 _ _).trans hk
    | ⟨1, _⟩ => exact rhs124_1 _ _)
  rw [el, er]

/-- Five slices of a block of sentences, each 124 words long and starting one word after the one before, laid side by
    side: feature `k` of row `r` is column `k % 256` of word `o0 + r + k / 256`. -/
theorem windows124_apply (xb : FVec Ideal S8x512x256 .bf16) (o0 o1 o2 o3 o4 : Nat)
    (h0 : S8x512x256.Slices ![0, o0, 0] S8x124x256) (h1 : S8x512x256.Slices ![0, o1, 0] S8x124x256)
    (h2 : S8x512x256.Slices ![0, o2, 0] S8x124x256) (h3 : S8x512x256.Slices ![0, o3, 0] S8x124x256)
    (h4 : S8x512x256.Slices ![0, o4, 0] S8x124x256)
    (e1 : o1 = o0 + 1) (e2 : o2 = o0 + 2) (e3 : o3 = o0 + 3) (e4 : o4 = o0 + 4) (hb : o0 + 128 ≤ 512)
    (p : Fin 8) (r : Fin 124) (k : Fin 1280) :
    concatenate S8x124x1280 2 [⟨S8x124x256, extractStridedSlice S8x124x256 ![0, o0, 0] xb h0⟩, ⟨S8x124x256, extractStridedSlice S8x124x256 ![0, o1, 0] xb h1⟩, ⟨S8x124x256, extractStridedSlice S8x124x256 ![0, o2, 0] xb h2⟩, ⟨S8x124x256, extractStridedSlice S8x124x256 ![0, o3, 0] xb h3⟩, ⟨S8x124x256, extractStridedSlice S8x124x256 ![0, o4, 0] xb h4⟩] concatenates_S8x124x256_S8x124x256_S8x124x256_S8x124x256_S8x124x256_S8x124x1280_d2 (ix3 p r k)
      = xb (ix3 p ⟨o0 + r.val + k.val / 256, by have := r.isLt; have := k.isLt; omega⟩ ⟨k.val % 256, Nat.mod_lt _ (by decide)⟩) := by
  have hk := k.isLt
  have hr := r.isLt
  have hc' : Shape.Concatenates (List.map (fun x => x.1) ([⟨S8x124x256, extractStridedSlice S8x124x256 ![0, o0, 0] xb h0⟩, ⟨S8x124x256, extractStridedSlice S8x124x256 ![0, o1, 0] xb h1⟩, ⟨S8x124x256, extractStridedSlice S8x124x256 ![0, o2, 0] xb h2⟩, ⟨S8x124x256, extractStridedSlice S8x124x256 ![0, o3, 0] xb h3⟩, ⟨S8x124x256, extractStridedSlice S8x124x256 ![0, o4, 0] xb h4⟩] : List ((s : Shape) × (s.Idx → Ideal .bf16)))) S8x124x1280 (2 : Fin 3) := concatenates_S8x124x256_S8x124x256_S8x124x256_S8x124x256_S8x124x256_S8x124x1280_d2
  have e0 : o0 = o0 + 0 := rfl
  rcases (show k.val / 256 = 0 ∨ k.val / 256 = 1 ∨ k.val / 256 = 2 ∨ k.val / 256 = 3 ∨ k.val / 256 = 4 by omega) with c | c | c | c | c
  · refine (concatenate_apply_piece (2 : Fin 3) _ hc' (ix3 p r k) 0 (by show 0 < 5; decide) S8x124x256 _ rfl rfl 0 rfl
        (ix3 p r ⟨k.val % 256, Nat.mod_lt _ (by decide)⟩) ?_ ?_).trans ?_
    · intro b hb
      match b with
      | ⟨0, _⟩ => rfl
      | ⟨1, _⟩ => rfl
      | ⟨2, _⟩ => exact absurd (Fin.ext rfl) hb
    · show 0 + k.val % 256 = k.val
      omega
    · exact slice3_axis1_apply o0 xb h0 p r ⟨k.val % 256, Nat.mod_lt _ (by decide)⟩ ⟨o0 + r.val + k.val / 256, by omega⟩
        (by show o0 + r.val + k.val / 256 = o0 + r.val; omega)
  · refine (concatenate_apply_piece (2 : Fin 3) _ hc' (ix3 p r k) 1 (by show 1 < 5; decide) S8x124x256 _ rfl rfl 256 rfl
        (ix3 p r ⟨k.val % 256, Nat.mod_lt _ (by decide)⟩) ?_ ?_).trans ?_
    · intro b hb
      match b with
      | ⟨0, _⟩ => rfl
      | ⟨1, _⟩ => rfl
      | ⟨2, _⟩ => exact absurd (Fin.ext rfl) hb
    · show 256 + k.val % 256 = k.val
      omega
    · exact slice3_axis1_apply o1 xb h1 p r ⟨k.val % 256, Nat.mod_lt _ (by decide)⟩ ⟨o0 + r.val + k.val / 256, by omega⟩
        (by show o0 + r.val + k.val / 256 = o1 + r.val; omega)
  · refine (concatenate_apply_piece (2 : Fin 3) _ hc' (ix3 p r k) 2 (by show 2 < 5; decide) S8x124x256 _ rfl rfl 512 rfl
        (ix3 p r ⟨k.val % 256, Nat.mod_lt _ (by decide)⟩) ?_ ?_).trans ?_
    · intro b hb
      match b with
      | ⟨0, _⟩ => rfl
      | ⟨1, _⟩ => rfl
      | ⟨2, _⟩ => exact absurd (Fin.ext rfl) hb
    · show 512 + k.val % 256 = k.val
      omega
    · exact slice3_axis1_apply o2 xb h2 p r ⟨k.val % 256, Nat.mod_lt _ (by decide)⟩ ⟨o0 + r.val + k.val / 256, by omega⟩
        (by show o0 + r.val + k.val / 256 = o2 + r.val; omega)
  · refine (concatenate_apply_piece (2 : Fin 3) _ hc' (ix3 p r k) 3 (by show 3 < 5; decide) S8x124x256 _ rfl rfl 768 rfl
        (ix3 p r ⟨k.val % 256, Nat.mod_lt _ (by decide)⟩) ?_ ?_).trans ?_
    · intro b hb
      match b with
      | ⟨0, _⟩ => rfl
      | ⟨1, _⟩ => rfl
      | ⟨2, _⟩ => exact absurd (Fin.ext rfl) hb
    · show 768 + k.val % 256 = k.val
      omega
    · exact slice3_axis1_apply o3 xb h3 p r ⟨k.val % 256, Nat.mod_lt _ (by decide)⟩ ⟨o0 + r.val + k.val / 256, by omega⟩
        (by show o0 + r.val + k.val / 256 = o3 + r.val; omega)
  · refine (concatenate_apply_piece (2 : Fin 3) _ hc' (ix3 p r k) 4 (by show 4 < 5; decide) S8x124x256 _ rfl rfl 1024 rfl
        (ix3 p r ⟨k.val % 256, Nat.mod_lt _ (by decide)⟩) ?_ ?_).trans ?_
    · intro b hb
      match b with
      | ⟨0, _⟩ => rfl
      | ⟨1, _⟩ => rfl
      | ⟨2, _⟩ => exact absurd (Fin.ext rfl) hb
    · show 1024 + k.val % 256 = k.val
      omega
    · exact slice3_axis1_apply o4 xb h4 p r ⟨k.val % 256, Nat.mod_lt _ (by decide)⟩ ⟨o0 + r.val + k.val / 256, by omega⟩
        (by show o0 + r.val + k.val / 256 = o4 + r.val; omega)

/-- The maximum over a stretch of 124 windows, for sentence `p` of the block and hidden unit `h`: the windows as rows of
    one matrix, the product with the weights, the rows regrouped by sentence, the maximum over the stretch from `-∞`. -/
theorem stretch124_apply (xb : FVec Ideal S8x512x256 .bf16) (wt : FVec Ideal S1280x1024 .bf16) (o0 o1 o2 o3 o4 : Nat)
    (h0 : S8x512x256.Slices ![0, o0, 0] S8x124x256) (h1 : S8x512x256.Slices ![0, o1, 0] S8x124x256)
    (h2 : S8x512x256.Slices ![0, o2, 0] S8x124x256) (h3 : S8x512x256.Slices ![0, o3, 0] S8x124x256)
    (h4 : S8x512x256.Slices ![0, o4, 0] S8x124x256)
    (e1 : o1 = o0 + 1) (e2 : o2 = o0 + 2) (e3 : o3 = o0 + 3) (e4 : o4 = o0 + 4) (hb : o0 + 128 ≤ 512)
    (hφ : FKind.Formats .f32) (hacc : (0xFF800000#32 : BitVec (FTy.f32).bits) = FKind.maximumf.neutral .f32 hφ)
    (p : Fin 8) (h : Fin 1024) :
    multiReduction (F := Ideal) .maximumf [1] S8x1024
        (shapeCast S8x124x1024
          (matmul dot_S992x1280_S1280x1024_S992x1024_1_0_0_1_n_n none
            (shapeCast S992x1280
              (concatenate S8x124x1280 2 [⟨S8x124x256, extractStridedSlice S8x124x256 ![0, o0, 0] xb h0⟩, ⟨S8x124x256, extractStridedSlice S8x124x256 ![0, o1, 0] xb h1⟩, ⟨S8x124x256, extractStridedSlice S8x124x256 ![0, o2, 0] xb h2⟩, ⟨S8x124x256, extractStridedSlice S8x124x256 ![0, o3, 0] xb h3⟩, ⟨S8x124x256, extractStridedSlice S8x124x256 ![0, o4, 0] xb h4⟩] concatenates_S8x124x256_S8x124x256_S8x124x256_S8x124x256_S8x124x256_S8x124x1280_d2)
              shapeCasts_S8x124x1280_S992x1280)
            wt (constant S992x1024 .f32 0x00000000#32))
          shapeCasts_S992x1024_S8x124x1024)
        0xFF800000#32 reduces_S8x124x1024_S8x1024 hφ hacc (ix2 p h)
      = Finset.univ.fold max ⊥ (fun r : Fin 124 => ∑ k : Fin 1280,
          xb (ix3 p ⟨o0 + r.val + k.val / 256, by have := r.isLt; have := k.isLt; omega⟩ ⟨k.val % 256, Nat.mod_lt _ (by decide)⟩) * wt (ix2 k h)) := by
  refine (Ideal.multiReduction_maximumf_single _ _ reduces_S8x124x1024_S8x1024 hφ hacc (ix2 p h)).trans ?_
  rw [show FloatOps.ofBits (F := Ideal) .f32 0xFF800000#32 = (⊥ : EReal) from neg_inf]
  refine Finset.fold_congr fun r _ => ?_
  have hl : reduces_S8x124x1024_S8x1024.lift (ix2 p h) r = ix3 p r h := funext fun a => Fin.ext (by
    match a with
    | ⟨0, _⟩ => rfl
    | ⟨1, _⟩ => rfl
    | ⟨2, _⟩ => rfl)
  show shapeCast S8x124x1024 _ shapeCasts_S992x1024_S8x124x1024 (reduces_S8x124x1024_S8x1024.lift (ix2 p h) r) = _
  rw [hl]
  have hr : r.val < 124 := r.isLt
  have hrow : p.val * 124 + r.val < 992 := by have := p.isLt; omega
  refine (shapeCast_apply _ shapeCasts_S992x1024_S8x124x1024 (ix3 p r h) (ix2 ⟨p.val * 124 + r.val, hrow⟩ h) (by
    rw [Shape.rowMajor_val_two, Shape.rowMajor_val_three]
    show (p.val * 124 + r.val) * 1024 + h.val = (p.val * 124 + r.val) * 1024 + h.val
    rfl)).trans ?_
  rw [matmul124_apply]
  refine Finset.sum_congr rfl fun k _ => ?_
  congr 1
  refine (shapeCast_apply _ shapeCasts_S8x124x1280_S992x1280 (ix2 ⟨p.val * 124 + r.val, hrow⟩ k) (ix3 p r k) (by
    rw [Shape.rowMajor_val_two, Shape.rowMajor_val_three]
    show (p.val * 124 + r.val) * 1280 + k.val = (p.val * 124 + r.val) * 1280 + k.val
    rfl)).trans ?_
  exact windows124_apply xb o0 o1 o2 o3 o4 h0 h1 h2 h3 h4 e1 e2 e3 e4 hb p r k

end Cert.KernelIdeal.Stretch

end
-- ==== Proof.Block.lean ====
/-
  What one grid point stores: for each of its eight sentences and each hidden unit, the maximum over the sentence's 508
  windows of the window's projection, plus the unit's bias, clipped below at zero.

  The body takes the maximum stretch by stretch (three stretches of 128 windows, then one of 124), nesting the partial
  maxima and starting from `-∞`; each stretch is `Stretch.stretch128_apply` / `stretch124_apply`, and the four together are
  the maximum over all 508 windows by `WindowPool.fold_max_stretches`.  The block's words are read after a change of
  float format and the weights through a cast to their own shape, both the identity on extended reals.
-/
import proofs.«423993_j35716948033851_3_alg».proof.Proof.Gen.KernelIdeal.Skeleton
import proofs.«423993_j35716948033851_3_alg».proof.Proof.Stretch
import proofs.«423993_j35716948033851_3_alg».proof.Proof.WindowPool
import Idealize.ShloMosaic.Lib.ValueLayout

set_option maxRecDepth 16384

noncomputable section

namespace Cert.KernelIdeal.Block

open Idealize.ShloMosaic Idealize.ShloMosaic.ValueIdx Cert.KernelIdeal Cert.KernelIdeal.Facts₀ Cert.KernelIdeal.Stretch Cert.WindowPool

/-- The weights as the body holds them are the weights as loaded. -/
theorem weights_eq (v0 : Vec Ideal S1280x1024 .bf16) : Gen.k0_pay2 v0 = v0 := by
  unfold Gen.k0_pay2
  exact shapeCast_self _ _

/-- The running maximum after the three full stretches, as arrays: the nested elementwise maxima of the three stretches'
    maxima, from the array of `-∞`. -/
theorem running_body (v0 : Vec Ideal S1280x1024 .bf16) (v4 : Vec Ideal S8x512x256 .f32) :
    Gen.k0_pay5 v0 v4
      = maximumf (maximumf (maximumf (broadcast S8x1024 (Scalar.ofBits (F := Ideal) .f32 0xFF800000#32))
          (multiReduction (F := Ideal) .maximumf [1] S8x1024 (shapeCast S8x128x1024 (matmul dot_S1024x1280_S1280x1024_S1024x1024_1_0_0_1_n_n none (shapeCast S1024x1280 (concatenate S8x128x1280 2 [⟨S8x128x256, extractStridedSlice S8x128x256 ![0, 0, 0] (Gen.k0_pay4 v4) slices_S8x512x256_o0_0_0_S8x128x256⟩, ⟨S8x128x256, extractStridedSlice S8x128x256 ![0, 1, 0] (Gen.k0_pay4 v4) slices_S8x512x256_o0_1_0_S8x128x256⟩, ⟨S8x128x256, extractStridedSlice S8x128x256 ![0, 2, 0] (Gen.k0_pay4 v4) slices_S8x512x256_o0_2_0_S8x128x256⟩, ⟨S8x128x256, extractStridedSlice S8x128x256 ![0, 3, 0] (Gen.k0_pay4 v4) slices_S8x512x256_o0_3_0_S8x128x256⟩, ⟨S8x128x256, extractStridedSlice S8x128x256 ![0, 4, 0] (Gen.k0_pay4 v4) slices_S8x512x256_o0_4_0_S8x128x256⟩] concatenates_S8x128x256_S8x128x256_S8x128x256_S8x128x256_S8x128x256_S8x128x1280_d2) shapeCasts_S8x128x1280_S1024x1280) (Gen.k0_pay2 v0) (constant S1024x1024 .f32 0x00000000#32)) shapeCasts_S1024x1024_S8x128x1024) 0xFF800000#32 reduces_S8x128x1024_S8x1024 (.inl rfl) rfl))
          (multiReduction (F := Ideal) .maximumf [1] S8x1024 (shapeCast S8x128x1024 (matmul dot_S1024x1280_S1280x1024_S1024x1024_1_0_0_1_n_n none (shapeCast S1024x1280 (concatenate S8x128x1280 2 [⟨S8x128x256, extractStridedSlice S8x128x256 ![0, 128, 0] (Gen.k0_pay4 v4) slices_S8x512x256_o0_128_0_S8x128x256⟩, ⟨S8x128x256, extractStridedSlice S8x128x256 ![0, 129, 0] (Gen.k0_pay4 v4) slices_S8x512x256_o0_129_0_S8x128x256⟩, ⟨S8x128x256, extractStridedSlice S8x128x256 ![0, 130, 0] (Gen.k0_pay4 v4) slices_S8x512x256_o0_130_0_S8x128x256⟩, ⟨S8x128x256, extractStridedSlice S8x128x256 ![0, 131, 0] (Gen.k0_pay4 v4) slices_S8x512x256_o0_131_0_S8x128x256⟩, ⟨S8x128x256, extractStridedSlice S8x128x256 ![0, 132, 0] (Gen.k0_pay4 v4) slices_S8x512x256_o0_132_0_S8x128x256⟩] concatenates_S8x128x256_S8x128x256_S8x128x256_S8x128x256_S8x128x256_S8x128x1280_d2) shapeCasts_S8x128x1280_S1024x1280) (Gen.k0_pay2 v0) (constant S1024x1024 .f32 0x00000000#32)) shapeCasts_S1024x1024_S8x128x1024) 0xFF800000#32 reduces_S8x128x1024_S8x1024 (.inl rfl) rfl))
          (multiReduction (F := Ideal) .maximumf [1] S8x1024 (shapeCast S8x128x1024 (matmul dot_S1024x1280_S1280x1024_S1024x1024_1_0_0_1_n_n none (shapeCast S1024x1280 (concatenate S8x128x1280 2 [⟨S8x128x256, extractStridedSlice S8x128x256 ![0, 256, 0] (Gen.k0_pay4 v4) slices_S8x512x256_o0_256_0_S8x128x256⟩, ⟨S8x128x256, extractStridedSlice S8x128x256 ![0, 257, 0] (Gen.k0_pay4 v4) slices_S8x512x256_o0_257_0_S8x128x256⟩, ⟨S8x128x256, extractStridedSlice S8x128x256 ![0, 258, 0] (Gen.k0_pay4 v4) slices_S8x512x256_o0_258_0_S8x128x256⟩, ⟨S8x128x256, extractStridedSlice S8x128x256 ![0, 259, 0] (Gen.k0_pay4 v4) slices_S8x512x256_o0_259_0_S8x128x256⟩, ⟨S8x128x256, extractStridedSlice S8x128x256 ![0, 260, 0] (Gen.k0_pay4 v4) slices_S8x512x256_o0_260_0_S8x128x256⟩] concatenates_S8x128x256_S8x128x256_S8x128x256_S8x128x256_S8x128x256_S8x128x1280_d2) shapeCasts_S8x128x1280_S1024x1280) (Gen.k0_pay2 v0) (constant S1024x1024 .f32 0x00000000#32)) shapeCasts_S1024x1024_S8x128x1024) 0xFF800000#32 reduces_S8x128x1024_S8x1024 (.inl rfl) rfl) := rfl

/-- Three nested elementwise maxima from a constant array, read at an index. -/
theorem max3_apply (z : Ideal .f32) (A B C : FVec Ideal S8x1024 .f32) (i : S8x1024.Idx) :
    maximumf (maximumf (maximumf (broadcast S8x1024 z) A) B) C i = max (max (max z (A i)) (B i)) (C i) := rfl

/-- The running maximum after the three full stretches, for sentence `p` of the block and hidden unit `h`. -/
theorem first_stretches (v0 : Vec Ideal S1280x1024 .bf16) (v4 : Vec Ideal S8x512x256 .f32) (p : Fin 8) (h : Fin 1024) :
    Gen.k0_pay5 v0 v4 (ix2 p h)
      = max (max (max ⊥
          (Finset.univ.fold max ⊥ fun r : Fin 128 => (fun t : Fin 508 => ∑ k : Fin 1280, v4 (ix3 p (wordOf t k) (colOf k)) * v0 (ix2 k h)) ⟨0 + r.val, by have := r.isLt; omega⟩))
          (Finset.univ.fold max ⊥ fun r : Fin 128 => (fun t : Fin 508 => ∑ k : Fin 1280, v4 (ix3 p (wordOf t k) (colOf k)) * v0 (ix2 k h)) ⟨128 + r.val, by have := r.isLt; omega⟩))
          (Finset.univ.fold max ⊥ fun r : Fin 128 => (fun t : Fin 508 => ∑ k : Fin 1280, v4 (ix3 p (wordOf t k) (colOf k)) * v0 (ix2 k h)) ⟨256 + r.val, by have := r.isLt; omega⟩) := by
  have hw := weights_eq v0
  have e0 : _ = (Finset.univ.fold max ⊥ fun r : Fin 128 => (fun t : Fin 508 => ∑ k : Fin 1280, v4 (ix3 p (wordOf t k) (colOf k)) * v0 (ix2 k h)) ⟨0 + r.val, by have := r.isLt; omega⟩) :=
    (stretch128_apply (Gen.k0_pay4 v4) (Gen.k0_pay2 v0) 0 1 2 3 4
      slices_S8x512x256_o0_0_0_S8x128x256 slices_S8x512x256_o0_1_0_S8x128x256 slices_S8x512x256_o0_2_0_S8x128x256 slices_S8x512x256_o0_3_0_S8x128x256 slices_S8x512x256_o0_4_0_S8x128x256
      rfl rfl rfl rfl (by decide) (.inl rfl) rfl p h).trans (Finset.fold_congr fun r _ => Finset.sum_congr rfl fun k _ => by
        rw [hw]; rfl)
  have e1 : _ = (Finset.univ.fold max ⊥ fun r : Fin 128 => (fun t : Fin 508 => ∑ k : Fin 1280, v4 (ix3 p (wordOf t k) (colOf k)) * v0 (ix2 k h)) ⟨128 + r.val, by have := r.isLt; omega⟩) :=
    (stretch128_apply (Gen.k0_pay4 v4) (Gen.k0_pay2 v0) 128 129 130 131 132
      slices_S8x512x256_o0_128_0_S8x128x256 slices_S8x512x256_o0_129_0_S8x128x256 slices_S8x512x256_o0_130_0_S8x128x256 slices_S8x512x256_o0_131_0_S8x128x256 slices_S8x512x256_o0_132_0_S8x128x256
      rfl rfl rfl rfl (by decide) (.inl rfl) rfl p h).trans (Finset.fold_congr fun r _ => Finset.sum_congr rfl fun k _ => by
        rw [hw]; rfl)
  have e2 : _ = (Finset.univ.fold max ⊥ fun r : Fin 128 => (fun t : Fin 508 => ∑ k : Fin 1280, v4 (ix3 p (wordOf t k) (colOf k)) * v0 (ix2 k h)) ⟨256 + r.val, by have := r.isLt; omega⟩) :=
    (stretch128_apply (Gen.k0_pay4 v4) (Gen.k0_pay2 v0) 256 257 258 259 260
      slices_S8x512x256_o0_256_0_S8x128x256 slices_S8x512x256_o0_257_0_S8x128x256 slices_S8x512x256_o0_258_0_S8x128x256 slices_S8x512x256_o0_259_0_S8x128x256 slices_S8x512x256_o0_260_0_S8x128x256
      rfl rfl rfl rfl (by decide) (.inl rfl) rfl p h).trans (Finset.fold_congr fun r _ => Finset.sum_congr rfl fun k _ => by
        rw [hw]; rfl)
  refine (congrFun (running_body v0 v4) (ix2 p h)).trans ((max3_apply _ _ _ _ _).trans ?_)
  exact congrArg₂ max (congrArg₂ max (congrArg₂ max (show Scalar.ofBits (F := Ideal) .f32 0xFF800000#32 = (⊥ : EReal) from neg_inf) e0) e1) e2

/-- What the body stores, as arrays, over the running maximum of the first three stretches: the last stretch's maximum
    joined in, the bias row broadcast and added, the elementwise maximum with zero. -/
theorem stored_body (v0 : Vec Ideal S1280x1024 .bf16) (v2 : Vec Ideal S1x1024 .f32) (v4 : Vec Ideal S8x512x256 .f32) :
    Gen.k0_pay1 (Gen.k0_pay2 v0) (Gen.k0_pay3 v2) (Gen.k0_pay5 v0 v4) (Gen.k0_pay6 v4) (Gen.k0_pay7 v4) (Gen.k0_pay8 v4) (Gen.k0_pay9 v4) (Gen.k0_pay10 v4)
      = maximumf (addf (maximumf (Gen.k0_pay5 v0 v4)
            (multiReduction (F := Ideal) .maximumf [1] S8x1024 (shapeCast S8x124x1024 (matmul dot_S992x1280_S1280x1024_S992x1024_1_0_0_1_n_n none (shapeCast S992x1280 (concatenate S8x124x1280 2 [⟨S8x124x256, extractStridedSlice S8x124x256 ![0, 384, 0] (Gen.k0_pay4 v4) slices_S8x512x256_o0_384_0_S8x124x256⟩, ⟨S8x124x256, extractStridedSlice S8x124x256 ![0, 385, 0] (Gen.k0_pay4 v4) slices_S8x512x256_o0_385_0_S8x124x256⟩, ⟨S8x124x256, extractStridedSlice S8x124x256 ![0, 386, 0] (Gen.k0_pay4 v4) slices_S8x512x256_o0_386_0_S8x124x256⟩, ⟨S8x124x256, extractStridedSlice S8x124x256 ![0, 387, 0] (Gen.k0_pay4 v4) slices_S8x512x256_o0_387_0_S8x124x256⟩, ⟨S8x124x256, extractStridedSlice S8x124x256 ![0, 388, 0] (Gen.k0_pay4 v4) slices_S8x512x256_o0_388_0_S8x124x256⟩] concatenates_S8x124x256_S8x124x256_S8x124x256_S8x124x256_S8x124x256_S8x124x1280_d2) shapeCasts_S8x124x1280_S992x1280) (Gen.k0_pay2 v0) (constant S992x1024 .f32 0x00000000#32)) shapeCasts_S992x1024_S8x124x1024) 0xFF800000#32 reduces_S8x124x1024_S8x1024 (.inl rfl) rfl))
          (broadcastTo S8x1024 (Gen.k0_pay3 v2) broadcasts_S1x1024_S8x1024))
        (broadcast S8x1024 (Scalar.ofBits (F := Ideal) .f32 0x00000000#32)) := rfl

/-- A maximum, a sum and a maximum with a constant array, read at an index. -/
theorem max_add_max_apply (z : Ideal .f32) (A R Bv : FVec Ideal S8x1024 .f32) (i : S8x1024.Idx) :
    maximumf (addf (maximumf A R) Bv) (broadcast S8x1024 z) i = max (max (A i) (R i) + Bv i) z := rfl

/-- What the body stores for sentence `p` of the block and hidden unit `h`, as one function of the loaded blocks. -/
theorem block_apply (v0 : Vec Ideal S1280x1024 .bf16) (v2 : Vec Ideal S1x1024 .f32) (v4 : Vec Ideal S8x512x256 .f32)
    (p : Fin 8) (h : Fin 1024) :
    Gen.k0_pay1 (Gen.k0_pay2 v0) (Gen.k0_pay3 v2) (Gen.k0_pay5 v0 v4) (Gen.k0_pay6 v4) (Gen.k0_pay7 v4) (Gen.k0_pay8 v4) (Gen.k0_pay9 v4) (Gen.k0_pay10 v4) (ix2 p h)
      = max (Finset.univ.fold max ⊥ (fun t : Fin 508 => ∑ k : Fin 1280, v4 (ix3 p (wordOf t k) (colOf k)) * v0 (ix2 k h)) + v2 (ix2 (0 : Fin 1) h)) 0 := by
  have hw := weights_eq v0
  have e3 : _ = (Finset.univ.fold max ⊥ fun r : Fin 124 => (fun t : Fin 508 => ∑ k : Fin 1280, v4 (ix3 p (wordOf t k) (colOf k)) * v0 (ix2 k h)) ⟨384 + r.val, by have := r.isLt; omega⟩) :=
    (stretch124_apply (Gen.k0_pay4 v4) (Gen.k0_pay2 v0) 384 385 386 387 388
      slices_S8x512x256_o0_384_0_S8x124x256 slices_S8x512x256_o0_385_0_S8x124x256 slices_S8x512x256_o0_386_0_S8x124x256 slices_S8x512x256_o0_387_0_S8x124x256 slices_S8x512x256_o0_388_0_S8x124x256
      rfl rfl rfl rfl (by decide) (.inl rfl) rfl p h).trans (Finset.fold_congr fun r _ => Finset.sum_congr rfl fun k _ => by
        rw [hw]; rfl)
  have eb : broadcastTo S8x1024 (Gen.k0_pay3 v2) broadcasts_S1x1024_S8x1024 (ix2 p h) = v2 (ix2 (0 : Fin 1) h) := by
    refine (broadcastTo_1b_ab_apply _ _ p h).trans ?_
    unfold Gen.k0_pay3
    rw [shapeCast_self]
  refine (congrFun (stored_body v0 v2 v4) (ix2 p h)).trans ((max_add_max_apply _ _ _ _ _).trans ?_)
  rw [← fold_max_stretches (fun t : Fin 508 => ∑ k : Fin 1280, v4 (ix3 p (wordOf t k) (colOf k)) * v0 (ix2 k h))]
  exact congrArg₂ max (congrArg₂ (fun a b : EReal => a + b) (congrArg₂ max (first_stretches v0 v4 p h) e3) eb)
    (show Scalar.ofBits (F := Ideal) .f32 0x00000000#32 = (0 : EReal) from Ideal.ofBits_zero_f32)

end Cert.KernelIdeal.Block

end
-- ==== Proof.Final.lean ====
/-
  From what each grid point stores to the whole result array.

  Grid point `t` (of four) works on sentences `8 t .. 8 t + 7`: its block of the input is those sentences whole, the
  weights (the argument transposed, which the program does before the launch) and the bias (the argument as one row)
  are the same whole arrays at every point, and it writes rows `8 t .. 8 t + 7` of the result.  So what point `t` writes
  back is block `t` of the pooled function of the three arguments, the four blocks cover the result, and the result
  array ends holding the pooled function.
-/
import proofs.«423993_j35716948033851_3_alg».proof.Proof.Gen.KernelIdeal.Value
import proofs.«423993_j35716948033851_3_alg».proof.Proof.Block
import proofs.«423993_j35716948033851_3_alg».proof.Proof.WindowPool
import Idealize.ShloMosaic.Lib.Pipeline.Value
import Idealize.ShloMosaic.Lib.ValueLayout
import Idealize.ShloMosaic.Lib.StableHlo.Run

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.WindowPool
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The weights as the region finds them are the weight argument transposed (the change of float format is the identity). -/
theorem weights_entry (c : Dev nD) (k : Fin 1280) (h : Fin 1024) :
    (V m c main_v1 : S1280x1024.Idx → EReal) (ix2 k h) = ((m ((c : Thread nD τ).loc main_arg1)) : S1024x1280.Idx → EReal) (ix2 h k) := by
  have e : @Eq (S1280x1024.Idx → EReal) (V m c main_v1)
      (truncf (F := Ideal) .bf16 (transpose S1280x1024 [1, 0] ((m ((c : Thread nD τ).loc main_arg1)) : S1024x1280.Idx → EReal) transposes_S1024x1280_S1280x1024_1_0) bitsLt_bf16_f32) := by
    dsimp only [Gen.V, Gen.hostOps0]; after_results <;> rfl
  rw [e]
  exact transpose_ix2_apply _ _ k h

/-- The bias row as the region finds it is the bias argument. -/
theorem bias_entry (c : Dev nD) (h : Fin 1024) :
    (V m c main_v2 : S1x1024.Idx → EReal) (ix2 (0 : Fin 1) h) = ((m ((c : Thread nD τ).loc main_arg2)) : S1024.Idx → EReal) (ix1 h) := by
  have e : @Eq (S1x1024.Idx → EReal) (V m c main_v2)
      (shapeCast S1x1024 ((m ((c : Thread nD τ).loc main_arg2)) : S1024.Idx → EReal) shapeCasts_S1024_S1x1024) := by
    dsimp only [Gen.V, Gen.hostOps0]; after_results <;> rfl
  rw [e]
  exact shapeCast_a_1a_apply _ _ 0 h

/-- The printed index maps over the four grid points: the input block moves with the output block along the sentences and
    nowhere else, the weights and the bias never move, and the output's block number is the point's. -/
theorem idx_facts : ∀ t : Fin cfg0.N,
    win0_0.index t (0 : Fin 3) = win0_3.index t (0 : Fin 2) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 3 :=
  (by decide +kernel : ∀ t : Fin grid0.N, _)

/-- Every block of eight result rows is some point's. -/
theorem idx_onto : ∀ q : Fin 4, ∃ t : Fin cfg0.N, win0_3.index t (0 : Fin 2) = q.val :=
  (by decide +kernel : ∀ q : Fin 4, ∃ t : Fin grid0.N, win0_3.index t (0 : Fin 2) = q.val)

/-- The input block of point `t`, read at (sentence `p` of the block, word, column), is the input argument at sentence
    `8 t + p`. -/
theorem words_apply (c : Dev nD) (t : Fin cfg0.N) (p : Fin 8) (w : Fin 512) (e : Fin 256) (s : Fin 32)
    (hs : s.val = win0_3.index t (0 : Fin 2) * 8 + p.val) :
    iblk m c 0 t (ix3 p w e) = ((m ((c : Thread nD τ).loc main_arg0)) : S32x512x256.Idx → EReal) (ix3 s w e) := by
  obtain ⟨f0, f1, f2, -⟩ := idx_facts t
  show V m c main_arg0 (((cfg0.win 0).blk t).view.emb (ix3 p w e)) = _
  rw [V_main_arg0]
  refine congrArg _ (funext fun a => Fin.ext ?_)
  match a with
  | ⟨0, _⟩ => show win0_0.index t (0 : Fin 3) * 8 + 1 * p.val = s.val; omega
  | ⟨1, _⟩ => show win0_0.index t (1 : Fin 3) * 512 + 1 * w.val = w.val; omega
  | ⟨2, _⟩ => show win0_0.index t (2 : Fin 3) * 256 + 1 * e.val = e.val; omega

/-- The weight block of any point, read at (feature, hidden unit), is the weight argument at (hidden unit, feature). -/
theorem weights_apply (c : Dev nD) (t : Fin cfg0.N) (k : Fin 1280) (h : Fin 1024) :
    iblk m c 1 t (ix2 k h) = ((m ((c : Thread nD τ).loc main_arg1)) : S1024x1280.Idx → EReal) (ix2 h k) := by
  obtain ⟨-, -, -, f3, f4, -⟩ := idx_facts t
  show V m c main_v1 (((cfg0.win 1).blk t).view.emb (ix2 k h)) = _
  have e : ((cfg0.win 1).blk t).view.emb (ix2 k h) = ix2 k h := funext fun a => Fin.ext (by
    match a with
    | ⟨0, _⟩ => show win0_1.index t (0 : Fin 2) * 1280 + 1 * k.val = k.val; omega
    | ⟨1, _⟩ => show win0_1.index t (1 : Fin 2) * 1024 + 1 * h.val = h.val; omega)
  rw [e]
  exact weights_entry m c k h

/-- The bias block of any point is the bias argument. -/
theorem bias_apply (c : Dev nD) (t : Fin cfg0.N) (h : Fin 1024) :
    iblk m c 2 t (ix2 (0 : Fin 1) h) = ((m ((c : Thread nD τ).loc main_arg2)) : S1024.Idx → EReal) (ix1 h) := by
  obtain ⟨-, -, -, -, -, f5, f6, -⟩ := idx_facts t
  show V m c main_v2 (((cfg0.win 2).blk t).view.emb (ix2 (0 : Fin 1) h)) = _
  have e : ((cfg0.win 2).blk t).view.emb (ix2 (0 : Fin 1) h) = ix2 (0 : Fin 1) h := funext fun a => Fin.ext (by
    match a with
    | ⟨0, _⟩ => show win0_2.index t (0 : Fin 2) * 1 + 1 * 0 = 0; omega
    | ⟨1, _⟩ => show win0_2.index t (1 : Fin 2) * 1024 + 1 * h.val = h.val; omega)
  rw [e]
  exact bias_entry m c h

/-- WHAT POINT `t` WRITES BACK is block `t` of the pooled function of the three arguments. -/
theorem flushed_eq (c : Dev nD) (t : Fin cfg0.N) :
    (dats m 0 c).flushed 3 t = ((cfg0.win 3).blk t).view.read (Elt Ideal) (pooled (m ((c : Thread nD τ).loc main_arg0)) (m ((c : Thread nD τ).loc main_arg1)) (m ((c : Thread nD τ).loc main_arg2))) := by
  rw [Value.flushed3]
  unfold out0_3
  rw [View.canon_unit_zero hz2]
  simp only [View.ld_unit_zero (S := S8x512x256) hz3, View.ld_unit_zero (S := S1280x1024) hz2, View.ld_unit_zero (S := S1x1024) hz2]
  obtain ⟨-, -, -, -, -, -, -, f7, f8⟩ := idx_facts t
  funext y
  obtain ⟨p, h, rfl⟩ : ∃ (p : Fin 8) (h : Fin 1024), y = ix2 p h :=
    ⟨⟨(y 0).val, (y 0).isLt⟩, ⟨(y 1).val, (y 1).isLt⟩, funext fun a => Fin.ext (by
      match a with
      | ⟨0, _⟩ => rfl
      | ⟨1, _⟩ => rfl)⟩
  have hp := p.isLt
  have hh := h.isLt
  have hs : win0_3.index t (0 : Fin 2) * 8 + p.val < 32 := by omega
  have hi : ((cfg0.win 3).blk t).view.emb (ix2 p h) = ix2 (⟨win0_3.index t (0 : Fin 2) * 8 + p.val, hs⟩ : Fin 32) h :=
    funext fun a => Fin.ext (by
      match a with
      | ⟨0, _⟩ => show win0_3.index t (0 : Fin 2) * 8 + 1 * p.val = win0_3.index t (0 : Fin 2) * 8 + p.val; omega
      | ⟨1, _⟩ => show win0_3.index t (1 : Fin 2) * 1024 + 1 * h.val = h.val; omega)
  show Gen.k0_pay1 (Gen.k0_pay2 (iblk m c 1 t)) (Gen.k0_pay3 (iblk m c 2 t)) (Gen.k0_pay5 (iblk m c 1 t) (iblk m c 0 t))
      (Gen.k0_pay6 (iblk m c 0 t)) (Gen.k0_pay7 (iblk m c 0 t)) (Gen.k0_pay8 (iblk m c 0 t)) (Gen.k0_pay9 (iblk m c 0 t))
      (Gen.k0_pay10 (iblk m c 0 t)) (ix2 p h)
    = pooled (m ((c : Thread nD τ).loc main_arg0)) (m ((c : Thread nD τ).loc main_arg1)) (m ((c : Thread nD τ).loc main_arg2)) (((cfg0.win 3).blk t).view.emb (ix2 p h))
  rw [hi]
  refine (Block.block_apply (iblk m c 1 t) (iblk m c 2 t) (iblk m c 0 t) p h).trans ?_
  show _ = max (Finset.univ.fold max ⊥ (proj (m ((c : Thread nD τ).loc main_arg0)) (m ((c : Thread nD τ).loc main_arg1)) (⟨win0_3.index t (0 : Fin 2) * 8 + p.val, hs⟩ : Fin 32) h) + (m ((c : Thread nD τ).loc main_arg2)) (ix1 h)) 0
  refine congrArg₂ (fun a b : EReal => max (a + b) 0) ?_ (bias_apply m c t h)
  refine Finset.fold_congr fun t' _ => ?_
  unfold proj
  refine Finset.sum_congr rfl fun k _ => ?_
  exact congrArg₂ (fun a b : EReal => a * b) (words_apply m c t p (wordOf t' k) (colOf k) _ rfl) (weights_apply m c t k h)

/-- An index of the result is in point `t`'s block iff each coordinate is in the block's range on its axis. -/
theorem mem_blk (t : Fin cfg0.N) (i : S32x1024.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v3).slice (win0_3.rect t)).set ↔ _
  rw [View.set_slice_whole, Rect.mem_set_unit]
  exact Iff.rfl

/-- The four blocks cover the result: row `r` is in the block of point `r / 8`. -/
theorem cover (i : S32x1024.Idx) : ∃ t : Fin cfg0.N, (cfg0.win 3).flush t = true ∧ i ∈ ((cfg0.win 3).blk t).view.set := by
  have hi0 : (i 0).val < 32 := (i 0).isLt
  have hi1 : (i 1).val < 1024 := (i 1).isLt
  obtain ⟨t, ht⟩ := idx_onto ⟨(i 0).val / 8, by omega⟩
  have q0 : win0_3.index t (0 : Fin 2) = (i 0).val / 8 := ht
  obtain ⟨-, -, -, -, -, -, -, f7, -⟩ := idx_facts t
  refine ⟨t, flush0_3 t, ?_⟩
  rw [mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 1024 ≤ (i 1).val ∧ (i 1).val < win0_3.index t (1 : Fin 2) * 1024 + 1024; omega

/-- THE RESULT ARRAY after the run is the pooled function of the three arguments. -/
theorem final (c : Dev nD) : (dats m 0 c).arrAt 3 cfg0.N = pooled (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result at the pooled function of the arguments, the arguments unchanged. -/
theorem run : θ_run defs (onTc (τ := τ) (main (F := Ideal))) ⟨m, fun _ => 0, ρ⟩ fun r => ∀ c : Dev nD,
      r.2.mem ((c : Thread nD τ).loc main_v3) = pooled (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.lean ====
/-
  The certificate: a convolution over time by sliding windows, pooled by a maximum, against its jnp reference.

  Both programs take 32 sentences of 512 words of 256 numbers, a weight matrix [1024, 1280] and a bias [1024].  For every
  sentence and hidden unit the result is the maximum, over the 508 windows of five consecutive words, of the window
  (1280 numbers, window position major) projected onto the unit, plus the unit's bias, clipped below at zero:
  `WindowPool.pooled`.

  The kernel works on eight sentences per grid point.  It multiplies stacked window rows by the transposed weights, takes
  the maximum over the windows in four stretches (128, 128, 128, 124) nested from `-∞`, adds the bias AFTER the maximum
  and clips.  The reference gathers the windows through a table of word numbers, projects, adds the bias BEFORE the
  maximum, takes one maximum over all 508 windows from `-∞` and clips.  On the extended reals the two agree: a sum may
  be taken in any grouping; the maximum over 508 terms is the maximum of the maxima over the four stretches
  (`WindowPool.fold_max_stretches`); and adding a constant commutes with a maximum taken from `⊥`, because addition is
  monotone and `⊥ + c = ⊥` (`WindowPool.fold_max_add_const`).  No finiteness of the inputs is used.

  `Final.run` reads the kernel's run as the pooled function of its arguments (the stretches in `Stretch`, the block in
  `Block`, the blocks tiling the result in `Final`); `Pooled.reference_eq` reads the reference's last stage as the same
  function.  The frames are the generated ones (the reference's is its run with the result dropped), and the
  idealization rewrote nothing, so `preserves` is `True`.
-/
import proofs.«423993_j35716948033851_3_alg».proof.Defs
import proofs.«423993_j35716948033851_3_alg».proof.Proof.Gen.Kernel
import proofs.«423993_j35716948033851_3_alg».proof.Proof.Gen.Kernel.Skeleton
import proofs.«423993_j35716948033851_3_alg».proof.Proof.Gen.Kernel.Launch
import proofs.«423993_j35716948033851_3_alg».proof.Proof.Gen.Kernel.Points
import proofs.«423993_j35716948033851_3_alg».proof.Proof.Gen.Kernel.Frame
import proofs.«423993_j35716948033851_3_alg».proof.Proof.Gen.KernelIdeal
import proofs.«423993_j35716948033851_3_alg».proof.Proof.Gen.KernelIdeal.Skeleton
import proofs.«423993_j35716948033851_3_alg».proof.Proof.Gen.KernelIdeal.Launch
import proofs.«423993_j35716948033851_3_alg».proof.Proof.Gen.KernelIdeal.Points
import proofs.«423993_j35716948033851_3_alg».proof.Proof.Gen.KernelIdeal.Frame
import proofs.«423993_j35716948033851_3_alg».proof.Proof.Gen.ReferenceIdeal
import proofs.«423993_j35716948033851_3_alg».proof.Proof.Gen.Pre_finite_inputs
import proofs.«423993_j35716948033851_3_alg».proof.Proof.Gen.KernelIdeal.Value
import proofs.«423993_j35716948033851_3_alg».proof.Proof.Reference
import proofs.«423993_j35716948033851_3_alg».proof.Proof.Final
import Idealize.ShloMosaic.Adequacy
import Idealize.ShloMosaic.Init

noncomputable section

namespace Cert.Proof

open Idealize.ShloMosaic Idealize.SL.Sem Cert.Kernel Cert.WindowPool

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at the pooled function of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v20_eq _ _ _).trans ((Cert.ReferenceIdeal.Pooled.reference_eq _ _ _).trans ?_)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
